-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S2000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x128 .f32) (main_arg1 : FVec F S40x128 .f32) (main_arg2 : FVec F S40 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg1
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S1x128 : Shape := ⟨2, ![1, 128]⟩
abbrev S2000x128 : Shape := ⟨2, ![2000, 128]⟩
abbrev S128 : Shape := ⟨1, ![128]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S128x40 : Shape := ⟨2, ![128, 40]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 101
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x1600000, .i32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S100000x128, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S128x40, .f32⟩
  | .hbm, ⟨99, _⟩ => ⟨S1x40, .f32⟩
  | .hbm, ⟨100, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x40, .f32⟩
  | .local _ .vmem, ⟨15, _⟩ => ⟨S1x40, .f32⟩
  | .local _ .vmem, ⟨16, _⟩ => ⟨S2000x40, .f32⟩
  | .local _ .vmem, ⟨17, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [BitOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  shapeCasts_S128_S1x128 : S128.ShapeCasts S1x128
  bcast_S_S1x128 : S_.BroadcastsInDim S1x128 (![] : Fin 0 → Fin S1x128.rank)
  broadcasts_S1x128_S2000x128 : S1x128.Broadcasts S2000x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S40x128_S128x40_1_0 : S40x128.Transposes [1, 0] S128x40
  shapeCasts_S40_S1x40 : S40.ShapeCasts S1x40
  shapeCasts_S2000x128_S2000x128 : S2000x128.ShapeCasts S2000x128
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S_ : Shape := ⟨0, ![]⟩
abbrev S128 : Shape := ⟨1, ![128]⟩
abbrev S1x128 : Shape := ⟨2, ![1, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S128x40 : Shape := ⟨2, ![128, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x1600000, .i32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000, .i32⟩
  | .hbm, ⟨30, _⟩ => ⟨S1x1600000, .i32⟩
  | .hbm, ⟨31, _⟩ => ⟨S1600000, .i32⟩
  | .hbm, ⟨32, _⟩ => ⟨S1700000, .i32⟩
  | .hbm, ⟨33, _⟩ => ⟨S1x1600000, .i32⟩
  | .hbm, ⟨34, _⟩ => ⟨S1600000, .i32⟩
  | .hbm, ⟨35, _⟩ => ⟨S1700000, .i32⟩
  | .hbm, ⟨36, _⟩ => ⟨S_, .f32⟩
  | .hbm, ⟨37, _⟩ => ⟨S1700000, .f32⟩
  | .hbm, ⟨38, _⟩ => ⟨S_, .f32⟩
  | .hbm, ⟨39, _⟩ => ⟨S100000, .f32⟩
  | .hbm, ⟨40, _⟩ => ⟨S1700000x1, .i32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S128x40, .f32⟩
  | .hbm, ⟨109, _⟩ => ⟨S100000x40, .f32⟩
  | .hbm, ⟨110, _⟩ => ⟨S1x40, .f32⟩
  | .hbm, ⟨111, _⟩ => ⟨S100000x40, .f32⟩
  | .hbm, ⟨112, _⟩ => ⟨S100000x40, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S100000, .f32⟩
  | .hbm, ⟨117, _⟩ => ⟨S100000, .f32⟩
  | .hbm, ⟨118, _⟩ => ⟨S100000x1, .f32⟩
  | .hbm, ⟨119, _⟩ => ⟨S100000x40, .f32⟩
  | .hbm, ⟨120, _⟩ => ⟨S100000x40, .f32⟩
  | .hbm, ⟨121, _⟩ => ⟨S100000x40, .f32⟩
  | .hbm, ⟨122, _⟩ => ⟨S_, .f32⟩
  | .hbm, ⟨123, _⟩ => ⟨S100000, .f32⟩
  | .hbm, ⟨124, _⟩ => ⟨S100000x1, .f32⟩
  | .hbm, ⟨125, _⟩ => ⟨S100000x1, .f32⟩
  | .hbm, ⟨126, _⟩ => ⟨S100000x40, .f32⟩
  | .hbm, ⟨127, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_c_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call0_cst : Ref sig .tc := ⟨.hbm, 113, rfl⟩
abbrev main_call0_v0 : Ref sig .tc := ⟨.hbm, 114, rfl⟩
abbrev main_call0_cst_0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_cst_1 : Ref sig .tc := ⟨.hbm, 122, rfl⟩
abbrev main_call0_v7 : Ref sig .tc := ⟨.hbm, 123, rfl⟩
abbrev main_call0_v8 : Ref sig .tc := ⟨.hbm, 124, rfl⟩
abbrev main_call0_v9 : Ref sig .tc := ⟨.hbm, 125, rfl⟩
abbrev main_call0_v10 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.K.Reg0.lean ====
/-
  The statistics call (50 grid points over row blocks of 2000): its frame half at the contents `V` the
  call is entered from. Two scratch rows carry the running column sums of the blocks and of their squares from
  one grid point to the next; the first point clears them, every point adds its block's column sums, and the last
  point copies them into the two output windows.
-/
import proofs.«119254_j89026082111679_1_alg».proof.Proof.Gen.Kernel.Launch
import proofs.«119254_j89026082111679_1_alg».proof.Proof.Gen.Kernel.Skeleton
import proofs.«119254_j89026082111679_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows after the body at position `n`: the column sums of blocks `0 … n` (first component) and
    of their squares (second), each accumulated onto the zero row the first point stores. -/
def accAt (c : Dev nD) : (n : ℕ) → n < cfg0.N → Vec F S1x128 .f32 × Vec F S1x128 .f32
  | 0, hn => (k0_pay3 (iblk0 V c 0 ⟨0, hn⟩) (k0_pay1 (F := F)), k0_pay4 (iblk0 V c 0 ⟨0, hn⟩) (k0_pay2 (F := F)))
  | n + 1, hn => (k0_pay3 (iblk0 V c 0 ⟨n + 1, hn⟩) (accAt c n (Nat.lt_of_succ_lt hn)).1,
      k0_pay4 (iblk0 V c 0 ⟨n + 1, hn⟩) (accAt c n (Nat.lt_of_succ_lt hn)).2)

theorem accAt_zero (c : Dev nD) (hn : 0 < cfg0.N) :
    accAt V c 0 hn = (k0_pay3 (iblk0 V c 0 ⟨0, hn⟩) (k0_pay1 (F := F)), k0_pay4 (iblk0 V c 0 ⟨0, hn⟩) (k0_pay2 (F := F))) := rfl

theorem accAt_succ (c : Dev nD) (n : ℕ) (hn : n + 1 < cfg0.N) :
    accAt V c (n + 1) hn = (k0_pay3 (iblk0 V c 0 ⟨n + 1, hn⟩) (accAt V c n (Nat.lt_of_succ_lt hn)).1,
      k0_pay4 (iblk0 V c 0 ⟨n + 1, hn⟩) (accAt V c n (Nat.lt_of_succ_lt hn)).2) := rfl

/-- The two scratch rows, listed: the scoped buffers of this call that are no staging buffer and that the invariant names. -/
abbrev scratch0L : List (Ref sig .tc) := [cc0_scratch0, cc0_scratch1]

/-- The call's invariant before position `n`: before the first point every scoped buffer that is no staging buffer
    at anything; afterwards the two scratch rows at the running sums the point before left, the other scoped
    buffers at anything; the generator register at some state throughout. -/
def PhiS0 (c : Dev nD) : (n : ℕ) → n ≤ cfg0.N → sProp 𝕄
  | 0, _ => Pipeline.ΦA spec0 c
  | n + 1, hn => iprop(owns (c : Thread nD τ) (Memref.whole cc0_scratch0 : Memref sig .tc .vmem S1x128 .f32) fullShare (accAt V c n hn).1
      ∗ owns (c : Thread nD τ) (Memref.whole cc0_scratch1 : Memref sig .tc .vmem S1x128 .f32) fullShare (accAt V c n hn).2
      ∗ Pipeline.scopedRestBut (Ix := Unit) (Name := ℕ) (U := UR sig nD τ) (Lvl := ℕ) (Val := Elt F) spec0 c scratch0L
      ∗ (∃ r, prngReg c r))

theorem PhiS0_zero (c : Dev nD) (h : 0 ≤ cfg0.N) : PhiS0 V c 0 h = Pipeline.ΦA spec0 c := rfl

theorem PhiS0_succ (c : Dev nD) (n : ℕ) (hn : n + 1 ≤ cfg0.N) :
    PhiS0 V c (n + 1) hn = iprop(owns (c : Thread nD τ) (Memref.whole cc0_scratch0 : Memref sig .tc .vmem S1x128 .f32) fullShare (accAt V c n hn).1
      ∗ owns (c : Thread nD τ) (Memref.whole cc0_scratch1 : Memref sig .tc .vmem S1x128 .f32) fullShare (accAt V c n hn).2
      ∗ Pipeline.scopedRestBut (Ix := Unit) (Name := ℕ) (U := UR sig nD τ) (Lvl := ℕ) (Val := Elt F) spec0 c scratch0L
      ∗ (∃ r, prngReg c r)) := rfl

/-- The call's proof data on core `c`: the arrays as the call finds them; after the body at point `t` the input
    window's buffer at its block, the two output windows' at the running sums (which the body stores there at the
    last point only: elsewhere the windows are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (accAt V c t.val t.isLt).1
    | ⟨2, _⟩ => (accAt V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (accAt V c t.val t.isLt).1 := by dsimp only [dat0]
theorem after0_2 (c : Dev nD) (t : Fin cfg0.N) : (dat0 V c).after 2 t = (accAt V c t.val t.isLt).2 := by dsimp only [dat0]

/-! ## The two tests of the body, over the grid -/

/-- The first conditional's test: it holds at the grid's first point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional's test: it holds at the grid's last point only. -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The input window is never idle. -/
theorem liveAt0_0 : ∀ t : Fin cfg0.N, cfg0.idle 0 (grid0.coords t) = false := by decide +kernel
/-- Off the last point the two output windows are idle and not written back; at the last point they are live. -/
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-! ## The invariant, opened -/

/-- The two scratch rows as memrefs. -/
abbrev scM0_0 : Memref sig .tc .vmem S1x128 .f32 := Memref.whole cc0_scratch0
abbrev scM0_1 : Memref sig .tc .vmem S1x128 .f32 := Memref.whole cc0_scratch1

/-- The class-A invariant with the two scratch rows split off as memrefs owned at some contents each. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c scratch0L)
          ∗ (∃ r, prngReg c r)) := by
  unfold Pipeline.ΦA
  rw [Pipeline.scopedRest_split_of_list spec0 c scratch0L (by decide) (by decide)]
  simp only [scM0_0, scM0_1, owns_whole]
  rfl

/-- Before a position that is not the first: the scratch rows at what the point before left. -/
theorem PhiS0_pos (c : Dev nD) (n : ℕ) (h : n ≤ cfg0.N) (hz : n ≠ 0) :
    PhiS0 V c n h = iprop(owns (c : Thread nD τ) scM0_0 fullShare (accAt V c (n - 1) (by omega)).1
      ∗ owns (c : Thread nD τ) scM0_1 fullShare (accAt V c (n - 1) (by omega)).2
      ∗ Pipeline.scopedRestBut (Ix := Unit) (Name := ℕ) (U := UR sig nD τ) (Lvl := ℕ) (Val := Elt F) spec0 c scratch0L
      ∗ (∃ r, prngReg c r)) := by
  cases n with
  | zero => exact absurd rfl hz
  | succ n => rfl

/-- The running sums at the first point: over the zero rows. -/
theorem accAt_first (c : Dev nD) (t : Fin cfg0.N) (h : t.val = 0) :
    accAt V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact absurd h (Nat.succ_ne_zero n)

/-- The running sums at a later point: over those of the point before. -/
theorem accAt_pos (c : Dev nD) (t : Fin cfg0.N) (h : t.val ≠ 0) :
    accAt V c t.val t.isLt = (k0_pay3 (iblk0 V c 0 t) (accAt V c (t.val - 1) (Nat.lt_of_le_of_lt (Nat.sub_le _ _) t.isLt)).1,
      k0_pay4 (iblk0 V c 0 t) (accAt V c (t.val - 1) (Nat.lt_of_le_of_lt (Nat.sub_le _ _) t.isLt)).2) := by
  obtain ⟨n, hn⟩ := t
  cases n with
  | zero => exact absurd rfl h
  | succ n => rfl

/-! ## The body on whole memrefs, case by case -/

theorem zeros0_rk2 : (![0, 0] : Fin 2 → Nat) = fun _ => 0 := funext fun a => by fin_cases a <;> rfl

/-- A store of a whole row, last, leaves its payload, read through any view of the row. -/
theorem read_row_store0 (m : Memref sig .tc .vmem S1x128 .f32) (f : m.view.ty.Contents (Elt F)) (w : Vec F S1x128 .f32)
    (L : List (View.Piece (Elt F) S1x128 .f32)) :
    m.view.read (Elt F) (m.view.writes (Elt F) f (⟨Rect.unit (s := S1x128) ![0, 0] S1x128.size inb_S1x128_S1x128_0_0, w⟩ :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.mem_cons_self .., View.mem_set_unit_zero (S := S1x128) zeros0_rk2 inb_S1x128_S1x128_0_0 y⟩
  exact (View.read_writes_eq_canon m.view f _ hcov).trans (View.canon_cons_unit_zero (S := S1x128) zeros0_rk2 inb_S1x128_S1x128_0_0 w L)

set_option maxHeartbeats 1000000 in
/-- At the first point: the scratch rows, at anything, end at the block's column sums over the zero rows. -/
theorem kernel0_first (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond0_0 i) (hc1 : ¬cond0_1 i)
    (x0 : Vec F S2000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k0_pay3 x0 (k0_pay1 (F := F)))
            ∗ owns (c : Thread nD τ) arg5 fullShare (k0_pay4 x0 (k0_pay2 (F := F)))) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d4, %f4, -, H4⟩, ⟨%d5, %f5, -, H5⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H4]
  · iexists _; isplitr
    swap; · iexact H4
    ipureintro
    sl_unfold_words
    rw [read_row_store0]
    simp only [View.readAt_eq_ld, harg1.read_unread, View.ld_unit_zero (S := S2000x128) zeros0_rk2, View.readCov_unit_zero (S := S1x128) _ zeros0_rk2]
  iexists _; isplitr
  swap; · iexact H5
  ipureintro
  sl_unfold_words
  rw [read_row_store0]
  simp only [View.readAt_eq_ld, harg1.read_unread, View.ld_unit_zero (S := S2000x128) zeros0_rk2, View.readCov_unit_zero (S := S1x128) _ zeros0_rk2]

set_option maxHeartbeats 1000000 in
/-- At a middle point: the scratch rows at `s0`, `s1` end at the block's column sums over them. -/
theorem kernel0_mid (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond0_0 i) (hc1 : ¬cond0_1 i)
    (x0 : Vec F S2000x128 .f32) (s0 s1 : Vec F S1x128 .f32) (K : PUnit → sProp 𝕄) :
    iprop(owns (c : Thread nD τ) arg1 fullShare x0 ∗ owns (c : Thread nD τ) arg4 fullShare s0 ∗ owns (c : Thread nD τ) arg5 fullShare s1
        ∗ (iprop(owns (c : Thread nD τ) arg1 fullShare x0 ∗ owns (c : Thread nD τ) arg4 fullShare (k0_pay3 x0 s0)
            ∗ owns (c : Thread nD τ) arg5 fullShare (k0_pay4 x0 s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H4]
  · iexists _; isplitr
    swap; · iexact H4
    ipureintro
    rw [read_row_store0]
    simp only [View.readAt_eq_ld, harg1.read_unread, harg4.read_unread, View.ld_unit_zero (S := S2000x128) zeros0_rk2, View.ld_unit_zero (S := S1x128) zeros0_rk2]
  iexists _; isplitr
  swap; · iexact H5
  ipureintro
  rw [read_row_store0]
  simp only [View.readAt_eq_ld, harg1.read_unread, harg5.read_unread, View.ld_unit_zero (S := S2000x128) zeros0_rk2, View.ld_unit_zero (S := S1x128) zeros0_rk2]

set_option maxHeartbeats 1000000 in
/-- At the last point: as at a middle point, and the two output rows, at anything, end at the scratch rows' contents. -/
theorem kernel0_last (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond0_0 i) (hc1 : cond0_1 i)
    (x0 : Vec F S2000x128 .f32) (s0 s1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k0_pay3 x0 s0)
            ∗ owns (c : Thread nD τ) arg3 fullShare (k0_pay4 x0 s1) ∗ owns (c : Thread nD τ) arg4 fullShare (k0_pay3 x0 s0)
            ∗ owns (c : Thread nD τ) arg5 fullShare (k0_pay4 x0 s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr
    swap; · iexact H2
    ipureintro
    sl_unfold_words
    rw [read_row_store0]
    simp only [View.readAt_eq_ld, harg1.read_unread, harg4.read_unread, View.ld_unit_zero (S := S2000x128) zeros0_rk2, View.ld_unit_zero (S := S1x128) zeros0_rk2, View.readCov_unit_zero (S := S1x128) _ zeros0_rk2]
  isplitl [H3]
  · iexists _; isplitr
    swap; · iexact H3
    ipureintro
    sl_unfold_words
    rw [read_row_store0]
    simp only [View.readAt_eq_ld, harg1.read_unread, harg5.read_unread, View.ld_unit_zero (S := S2000x128) zeros0_rk2, View.ld_unit_zero (S := S1x128) zeros0_rk2, View.readCov_unit_zero (S := S1x128) _ zeros0_rk2]
  isplitl [H4]
  · iexists _; isplitr
    swap; · iexact H4
    ipureintro
    sl_unfold_words
    rw [read_row_store0]
    simp only [View.readAt_eq_ld, harg1.read_unread, harg4.read_unread, View.ld_unit_zero (S := S2000x128) zeros0_rk2, View.ld_unit_zero (S := S1x128) zeros0_rk2]
  iexists _; isplitr
  swap; · iexact H5
  ipureintro
  sl_unfold_words
  rw [read_row_store0]
  simp only [View.readAt_eq_ld, harg1.read_unread, harg5.read_unread, View.ld_unit_zero (S := S2000x128) zeros0_rk2, View.ld_unit_zero (S := S1x128) zeros0_rk2]

/-! ## The body obligation, at a generic point -/

/-- The input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first position the invariant is the class-A one. -/
theorem PhiS0_first (c : Dev nD) (n : ℕ) (h : n ≤ cfg0.N) (hz : n = 0) : PhiS0 V c n h = Pipeline.ΦA spec0 c := by
  subst hz; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input window's buffer holds its block; the two tests say which of the three cases
    the point is in. At the first point the invariant hands over the scratch rows at anything, later at the running
    sums the point before left; the body leaves them at this point's running sums, which the invariant takes back.
    Off the last point the output windows are idle and handed back as found; at the last point they are left at
    the running sums. The rest of the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  have hN : t.val < 50 := lt_of_lt_of_eq t.isLt (show cfg0.N = 50 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1),
      Dat.leavesExact_idle (dat0 V c) 2 t (idleAt0_2 t hc1) (noFlush0_2 t hc1)]
    rw [accAt_first V c t h0]; dsimp only
    rw [PhiS0_castSucc V c t, PhiS0_first V c _ _ h0, PhiA0_eq]
    iintro ⟨⟨⟨⟨⟨%e0, HS0⟩, ⟨%e1, HS1⟩⟩, Hrest⟩, Hg⟩, Ho, ⟨%d0, H0⟩, H1, H2⟩
    iapply (kernel0_first c Set.univ (grid0.coords t) _ _ _ _ _ _ _ _ _ _ hc0 hc1 (iblk0 V c 0 t) _)
    isplitl [H0]; · iexact H0
    isplitl [HS0]; · iexists _; iexact HS0
    isplitl [HS1]; · iexists _; iexact HS1
    iintro ⟨H0, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    iexact H2
  · have hc0 : ¬cond0_0 (grid0.coords t) := fun h => h0 ((hcond0_0 t).mp h)
    by_cases h1 : t.val = 49
    · have hc1 : cond0_1 (grid0.coords t) := (hcond0_1 t).mpr h1
      rw [show (dat0 V c).leavesExact 1 t = owns (c : Thread nD τ) (st0_1 t) fullShare ((dat0 V c).after 1 t) from by
          unfold Dat.leavesExact; rw [liveAt0_1 t hc1], after0_1]
      rw [show (dat0 V c).leavesExact 2 t = owns (c : Thread nD τ) (st0_2 t) fullShare ((dat0 V c).after 2 t) from by
          unfold Dat.leavesExact; rw [liveAt0_2 t hc1], after0_2]
      rw [accAt_pos V c t h0]; dsimp only
      rw [PhiS0_castSucc V c t, PhiS0_pos V c _ _ h0]
      iintro ⟨⟨HS0, HS1, Hrest, Hg⟩, Ho, ⟨%d0, H0⟩, ⟨%d1, H1⟩, ⟨%d2, H2⟩⟩
      iapply (kernel0_last c Set.univ (grid0.coords t) _ _ _ _ _ _ _ _ _ _ hc0 hc1 (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 1 t (idleAt0_1 t hc1) (noFlush0_1 t hc1),
        Dat.leavesExact_idle (dat0 V c) 2 t (idleAt0_2 t hc1) (noFlush0_2 t hc1)]
      rw [accAt_pos V c t h0]; dsimp only
      rw [PhiS0_castSucc V c t, PhiS0_pos V c _ _ h0]
      iintro ⟨⟨HS0, HS1, Hrest, Hg⟩, Ho, ⟨%d0, H0⟩, H1, H2⟩
      iapply (kernel0_mid c Set.univ (grid0.coords t) _ _ _ _ _ _ _ _ _ _ hc0 hc1 (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2

/-- The body obligation of the statistics call, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero]
  try exact Idealize.SL.BI.Entails.refl _

/-- After the last point the invariant gives the class-A invariant back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨HS0, HS1, Hrest, Hg⟩
  isplitl [HS0 HS1 Hrest]
  · isplitl [HS0 HS1]
    · isplitl [HS0]; · iexists _; iexact HS0
      iexists _; iexact HS1
    iexact Hrest
  iexact Hg

end Cert.Kernel.Fr

end
-- ==== Proof.K.Reg1.lean ====
/-
  The normalise-and-binarise call (50 grid points over row blocks of 2000): its frame half at the contents `V` the call is
  entered from. Each point reads its block of rows, the row of column means and the row of inverse deviations, and stores
  the sign of the normalised block.
-/
import proofs.«119254_j89026082111679_1_alg».proof.Proof.Gen.Kernel.Launch
import proofs.«119254_j89026082111679_1_alg».proof.Proof.Gen.Kernel.Skeleton
import proofs.«119254_j89026082111679_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data on core `c`: the arrays as the call finds them; after the body at point `t` each input
    window's buffer at its block and the output window's at the body's one stored value of the input blocks; the
    invariant the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 0 t) (iblk1 V c 1 t) (iblk1 V c 2 t) := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's one store -/

/-- The offsets of a whole-buffer access are all zero. -/
theorem zero_offsets : (![0, 0] : Fin 2 → Nat) = fun _ => 0 := funext fun a => by fin_cases a <;> rfl

/-- The whole output buffer, as the rectangle the body stores through. -/
abbrev rOut : Rect S2000x128 := Rect.unit (s := S2000x128) ![0, 0] S2000x128.size inb_S2000x128_S2000x128_0_0

/-- The one store covers the output buffer. -/
theorem cover_out (p : Vec F S2000x128 .f32) (y : S2000x128.Idx) :
    ∃ pc ∈ ([⟨rOut, p⟩] : List (View.Piece (Elt F) S2000x128 .f32)), y ∈ pc.1.set :=
  View.cover_of_tiled [⟨rOut, p⟩] S2000x128.size (by rfl) y

set_option maxHeartbeats 1000000 in
/-- The body on whole staging buffers, the three inputs' at contents `x0`, `x1`, `x2` and the output's at anything,
    runs to the continuation holding the inputs' as they were and the output's at the sign of the normalised block. -/
theorem sound_kernel1 (c : Dev nD) (E : Set ℕ) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k1_pay1 x0 x1 x2)) -∗ K ⟨⟩))
      ⊢ wp frame (wpE (defs₀ (F := F)) Variants.none c none) E
          (cc1__bn_apply_kernel i arg1 harg1 arg2 harg2 arg3 harg3 arg4 harg4) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero zero_offsets]
  simp only [View.readAt_eq_ld, View.ld_unit_zero (S := S2000x128) zero_offsets,
    View.ld_unit_zero (S := S1x128) zero_offsets]

/-! ## The body at a point -/

/-- What the body is called with at point `t`: the invariant, the core's debts, and each window's current staging
    buffer at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point `t`: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the body's triple applies at them; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The classifier call (50 grid points over row blocks of 2000): its frame half at the contents `V` the call is entered
  from. Each point reads its block of rows, the transposed weights and the bias row, and stores the block's log-softmax
  of the affine scores.
-/
import proofs.«119254_j89026082111679_1_alg».proof.Proof.Gen.Kernel.Launch
import proofs.«119254_j89026082111679_1_alg».proof.Proof.Gen.Kernel.Skeleton
import proofs.«119254_j89026082111679_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's proof data on core `c`: the arrays as the call finds them; after the body at point `t` each input
    window's buffer at its block and the output window's at the body's one stored value of the input blocks; the
    invariant the scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]

/-! ## The input windows' staging buffers -/

/-- An input window whose body leaves its block in place holds, at every point, what a fetch there would put in its
    buffer, fetched there or not: where it is not fetched its block index has not moved, so the previous point's
    block is this point's. The three input windows are uncut and never idle, so the fetched contents are the block. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's one store -/

/-- The offsets of every access of the body are zero on both axes. -/
theorem zero_off2 : (![0, 0] : Fin 2 → Nat) = fun _ => 0 := funext fun a => by fin_cases a <;> rfl

/-- The whole output buffer as a rectangle: offset zero, the buffer's own extents. -/
abbrev r2_out : Rect S2000x40 := Rect.unit (s := S2000x40) ![0, 0] S2000x40.size inb_S2000x40_S2000x40_0_0

/-- The one store is over the whole output buffer, so it covers it. -/
theorem cover2_3 (p : Vec F S2000x40 .f32) (y : S2000x40.Idx) :
    ∃ pc ∈ ([⟨r2_out, p⟩] : List (View.Piece (Elt F) S2000x40 .f32)), y ∈ pc.1.set :=
  View.cover_of_tiled [⟨r2_out, p⟩] S2000x40.size (by rfl) y

set_option maxHeartbeats 1000000 in
/-- The body on whole staging memrefs, the three inputs' at read contents `x0 x1 x2` and the output's at anything, runs
    to the continuation holding the inputs' as they were and the output's at the one stored value of the inputs. -/
theorem sound_kernel2 (c : Dev nD) (E : Set ℕ) (i : grid2.Coords)
    (arg1 : Memref sig .tc .vmem S2000x128 .f32) (harg1 : arg1.IsWhole)
    (arg2 : Memref sig .tc .vmem S128x40 .f32) (harg2 : arg2.IsWhole)
    (arg3 : Memref sig .tc .vmem S1x40 .f32) (harg3 : arg3.IsWhole)
    (arg4 : Memref sig .tc .vmem S2000x40 .f32) (harg4 : arg4.IsWhole)
    (x0 : Vec F S2000x128 .f32) (x1 : Vec F S128x40 .f32) (x2 : Vec F S1x40 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := F)) Variants.none c none) E
          (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _), View.canon_unit_zero zero_off2]
  simp only [View.readAt_eq_ld, View.ld_unit_zero (S := S2000x128) zero_off2, View.ld_unit_zero (S := S128x40) zero_off2,
    View.ld_unit_zero (S := S1x40) zero_off2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' memrefs hold their blocks, so the body's triple applies at those blocks;
    the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
/-
  The buffer contents at every boundary between two items of the program, as a fold from the launch memory: a stretch of
  host operations applies its operations; a kernel call leaves its arrays at what its write-backs fold to and every other
  buffer as it found it. The items, in order: the statistics call; 12 host operations (means, variances, inverse
  deviations); the normalise-and-binarise call; 46 and then 35 host operations (the three rounds of propagation over the
  graph and the classifier's operands); the classifier call.
-/
import proofs.«119254_j89026082111679_1_alg».proof.Proof.Gen.Kernel.Launch
import proofs.«119254_j89026082111679_1_alg».proof.Proof.Gen.Kernel.Skeleton
import proofs.«119254_j89026082111679_1_alg».proof.Proof.Gen.Kernel.Points
import proofs.«119254_j89026082111679_1_alg».proof.Proof.K.Reg0
import proofs.«119254_j89026082111679_1_alg».proof.Proof.K.Reg1
import proofs.«119254_j89026082111679_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At call 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b

/-- After the 12 host operations between the first two calls. -/
abbrev W2 : Dev nD → Valuation τ sig (Elt F) := fun c => StableHlo.after main_part0_ops0 (W1 m ρ c)
/-- The same read at the TensorCore's references. -/
abbrev V2 : (c : Dev nD) → (b : Ref sig .tc) → Buf (Elt F) ((c : Thread nD τ).loc b) := fun c b => W2 m ρ c b

/-- At call 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b

/-- After the first 46 host operations between the last two calls. -/
abbrev W4 : Dev nD → Valuation τ sig (Elt F) := fun c => StableHlo.after main_part0_ops1 (W3 m ρ c)
/-- The same read at the TensorCore's references. -/
abbrev V4 : (c : Dev nD) → (b : Ref sig .tc) → Buf (Elt F) ((c : Thread nD τ).loc b) := fun c b => W4 m ρ c b

/-- After the remaining 35 host operations before the last call. -/
abbrev W5 : Dev nD → Valuation τ sig (Elt F) := fun c => StableHlo.after main_part1_ops0 (W4 m ρ c)
/-- The same read at the TensorCore's references. -/
abbrev V5 : (c : Dev nD) → (b : Ref sig .tc) → Buf (Elt F) ((c : Thread nD τ).loc b) := fun c b => W5 m ρ c b

/-- At call 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b

end Cert.Kernel.Fr

end
-- ==== Proof.K.Run.lean ====
/-
  The program's run, item by item: each stretch of host operations from the contents its predecessor left, each kernel call
  from its own frame half, chained from the launch memory to the return. Every weakly fair execution terminates, nothing
  faulting, with every unscoped buffer at the last boundary's contents.
-/
import proofs.«119254_j89026082111679_1_alg».proof.Proof.Gen.Kernel.Launch
import proofs.«119254_j89026082111679_1_alg».proof.Proof.Gen.Kernel.Skeleton
import proofs.«119254_j89026082111679_1_alg».proof.Proof.Gen.Kernel.Points
import proofs.«119254_j89026082111679_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What each call leaves, read at its exit boundary

At a call's exit each of its window arrays holds what the pipeline's write-backs folded to, and every other buffer
what it held when the call was entered. -/

theorem left0 (c : Dev nD) (w : Fin cfg0.W) : (dat0 (V0 m ρ) c).arrAt w cfg0.N = V1 m ρ c (Pipeline.arrRef spec0 w) :=
  (W1_arr m ρ c w).symm
theorem bypass0 (c : Dev nD) : ∀ b, b ∉ Finset.univ.image (Pipeline.arrRef spec0) → V1 m ρ c b = V0 m ρ c b :=
  fun b hb => W1_of_ne m ρ c b fun w hw => hb (Finset.mem_image.mpr ⟨w, Finset.mem_univ _, hw⟩)

theorem left1 (c : Dev nD) (w : Fin cfg1.W) : (dat1 (V2 m ρ) c).arrAt w cfg1.N = V3 m ρ c (Pipeline.arrRef spec1 w) :=
  (W3_arr m ρ c w).symm
theorem bypass1 (c : Dev nD) : ∀ b, b ∉ Finset.univ.image (Pipeline.arrRef spec1) → V3 m ρ c b = V2 m ρ c b :=
  fun b hb => W3_of_ne m ρ c b fun w hw => hb (Finset.mem_image.mpr ⟨w, Finset.mem_univ _, hw⟩)

theorem left2 (c : Dev nD) (w : Fin cfg2.W) : (dat2 (V5 m ρ) c).arrAt w cfg2.N = V6 m ρ c (Pipeline.arrRef spec2 w) :=
  (W6_arr m ρ c w).symm
theorem bypass2 (c : Dev nD) : ∀ b, b ∉ Finset.univ.image (Pipeline.arrRef spec2) → V6 m ρ c b = V5 m ρ c b :=
  fun b hb => W6_of_ne m ρ c b fun w hw => hb (Finset.mem_image.mpr ⟨w, Finset.mem_univ _, hw⟩)

/-! ## The arguments at the last boundary

No host operation writes an argument, and a call either reads it through an input window (whose array the pipeline
leaves as found) or does not name it: the fold at an argument's buffer walks back, boundary by boundary, to the
launch memory. -/

set_option maxHeartbeats 4000000 in
/-- Argument 0 ends as launched: it is the input window 0 of the first two calls, whose pipelines leave an input array
    as they found it; the last call does not name it and no host operation writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

set_option maxHeartbeats 4000000 in
/-- Argument 1 ends as launched: no call has it among its windows and no host operation writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

set_option maxHeartbeats 4000000 in
/-- Argument 2 ends as launched: no call has it among its windows and no host operation writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg2) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

set_option maxHeartbeats 4000000 in
/-- Argument 3 ends as launched: no call has it among its windows and no host operation writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg3) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-! ## The calls' proof data and the state a core carries between items -/

/-- No call prefetches a table: the admissible contents are the trivial ones. -/
abbrev adm : (p : Fin 3) → (pcfgs (F := F) p).Adm := fun p => (cfgs p).toPCfg_adm

/-- Each call's proof data at the contents the call is entered from. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V5 m ρ) c

abbrev 𝒱₀ : Variants := Variants.none
/-- No level is assigned: no core ever owes another anything. -/
abbrev L : GSem nD τ sig → Finset Unit := fun _ => ∅
abbrev lv : GSem nD τ sig → Unit → ℕ := fun _ _ => 0
/-- Beside the buffers a core carries its generator register, at some state, and the record that it owes nothing. -/
abbrev R (c : Dev nD) : sProp 𝕄 := iprop((∃ r, prngReg c r) ∗ ∃ W, owes (c : Thread nD τ) (0 : CellTallies nD τ sig Unit) W)

/-- A stretch of host operations as a segment: from the unscoped buffers at `W` to the same buffers at the
    operations' result from `W`, `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W R

/-- None of the 12 operations between the first two calls allocates a buffer. -/
theorem main_part0_ops0_fresh : (main_part0_ops0 : List (HloOp τ sig (Elt F))).Forall fun op => op.fresh = ∅ := by
  simp only [List.Forall]; repeat' constructor
set_option maxHeartbeats 4000000 in
/-- None of the 46 operations after the second call allocates a buffer. -/
theorem main_part0_ops1_fresh : (main_part0_ops1 : List (HloOp τ sig (Elt F))).Forall fun op => op.fresh = ∅ := by
  simp only [List.Forall]; repeat' constructor
set_option maxHeartbeats 4000000 in
/-- None of the 35 operations before the last call allocates a buffer. -/
theorem main_part1_ops0_fresh : (main_part1_ops0 : List (HloOp τ sig (Elt F))).Forall fun op => op.fresh = ∅ := by
  simp only [List.Forall]; repeat' constructor

/-- An unscoped TensorCore reference is one of the buffers a core carries between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the return, apart from owing nothing: every unscoped buffer at `W6`, the generator register
    at some state. -/
abbrev Tₙ (c : Dev nD) : sProp 𝕄 := iprop(StableHlo.held (c : Thread nD τ) (Pipeline.ucRefs τ sig) (W6 m ρ c) ∗ ∃ r, prngReg c r)

/-! ## The three calls as segments -/

set_option backward.isDefEq.respectTransparency.types false in
/-- Call 0 as a segment of the run: entered with every unscoped buffer at `W0`, left with them at `W1`. At entry
    the call's window arrays are taken out of the unscoped buffers and the generator register goes into the call's
    invariant; at exit the arrays come back at what the write-backs folded to, beside the buffers that bypassed the
    call, and the register comes out again. The core owes nothing throughout; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hout_of := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    refine (?_ : _ ⊢ Pipeline.ΦA spec0 c).trans (hin0 (V0 m ρ) c)
    unfold Pipeline.ΦA
    iintro ⟨Hgen, -, Hscoped⟩
    isplitl [Hscoped]
    · iexact Hscoped
    · iexact Hgen
  hout c := by
    rw [Pipeline.ownSems0_none]
    refine (hout0 (V0 m ρ) c).trans ?_
    unfold Pipeline.ΦA
    iintro ⟨Hscoped, Hgen⟩
    isplitl [Hgen]
    · iexact Hgen
    isplitr
    · iempintro
    · iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (bypass0 m ρ c)
    rw [Pipeline.unscopedBufs_held] at hback
    iintro ⟨Harr, Howes, Hgen, Hoth⟩
    imodintro
    isplitl [Harr Hoth]
    · iapply hback
      isplitl [Harr] <;> iassumption
    isplitl [Hgen]
    · iexact Hgen
    unfold Pipeline.Dat.owesAt Pipeline.owesWithin
    icases Howes with ⟨%T, -, Howes⟩
    iexists T
    iexact Howes

set_option backward.isDefEq.respectTransparency.types false in
/-- Call 1 as a segment of the run: entered with every unscoped buffer at `W2`, left with them at `W3`. At entry
    the call's window arrays are taken out of the unscoped buffers and the generator register goes into the call's
    invariant; at exit the arrays come back at what the write-backs folded to, beside the buffers that bypassed the
    call, and the register comes out again. The core owes nothing throughout; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hout_of := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    rw [show (pdats m ρ 1 c).Φ 0 = Pipeline.ΦA spec1 c from rfl]
    unfold Pipeline.ΦA
    iintro ⟨Hgen, -, Hscoped⟩
    isplitl [Hscoped]
    · iexact Hscoped
    · iexact Hgen
  hout c := by
    rw [Pipeline.ownSems0_none, show (pdats m ρ 1 c).Φ (Fin.last _) = Pipeline.ΦA spec1 c from rfl]
    unfold Pipeline.ΦA
    iintro ⟨Hscoped, Hgen⟩
    isplitl [Hgen]
    · iexact Hgen
    isplitr
    · iempintro
    · iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (bypass1 m ρ c)
    rw [Pipeline.unscopedBufs_held] at hback
    iintro ⟨Harr, Howes, Hgen, Hoth⟩
    imodintro
    isplitl [Harr Hoth]
    · iapply hback
      isplitl [Harr] <;> iassumption
    isplitl [Hgen]
    · iexact Hgen
    unfold Pipeline.Dat.owesAt Pipeline.owesWithin
    icases Howes with ⟨%T, -, Howes⟩
    iexists T
    iexact Howes

set_option backward.isDefEq.respectTransparency.types false in
/-- Call 2 as a segment of the run: entered with every unscoped buffer at `W5`, left with them at `W6`. At entry
    the call's window arrays are taken out of the unscoped buffers and the generator register goes into the call's
    invariant; at exit the arrays come back at what the write-backs folded to, beside the buffers that bypassed the
    call, and the register comes out again. The core owes nothing throughout; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hout_of := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    rw [show (pdats m ρ 2 c).Φ 0 = Pipeline.ΦA spec2 c from rfl]
    unfold Pipeline.ΦA
    iintro ⟨Hgen, -, Hscoped⟩
    isplitl [Hscoped]
    · iexact Hscoped
    · iexact Hgen
  hout c := by
    rw [Pipeline.ownSems0_none, show (pdats m ρ 2 c).Φ (Fin.last _) = Pipeline.ΦA spec2 c from rfl]
    unfold Pipeline.ΦA
    iintro ⟨Hscoped, Hgen⟩
    isplitl [Hgen]
    · iexact Hgen
    isplitr
    · iempintro
    · iexact Hscoped
  hexit c := by
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (bypass2 m ρ c)
    rw [Pipeline.unscopedBufs_held] at hback
    iintro ⟨Harr, Howes, Hgen, Hoth⟩
    imodintro
    isplitl [Harr Hoth Hgen]
    · isplitl [Harr Hoth]
      · iapply hback
        isplitl [Harr] <;> iassumption
      · iexact Hgen
    unfold Pipeline.Dat.owesAt Pipeline.owesWithin
    icases Howes with ⟨%T, -, Howes⟩
    iexists T
    iexact Howes

/-! ## The program as its six segments, and the run -/

/-- The six items in order: call 0; the 12 operations; call 1; the 46 operations; the 35 operations; call 2. -/
abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .region (reg1 m ρ),
    .host (hseg main_part0_ops1 main_part0_ops1_sub main_part0_ops1_fresh (W3 m ρ)),
    .host (hseg main_part1_ops0 main_part1_ops0_sub main_part1_ops0_fresh (W4 m ρ)),
    .region (reg2 m ρ) ]

/-- The program is the run of its segments: both are the chain of the same six items. -/
theorem main_run (c : Dev nD) : main (F := F) c = Pipeline.Seg.run (segs m ρ) := (main_chain_windows c).trans (by chain_rfl)

set_option backward.isDefEq.respectTransparency.types false in
/-- THE RUN: from any memory with zero counters every weakly fair execution of the program on the TensorCores terminates,
    nothing faulting, and every final state holds each unscoped buffer at the contents the fold `W6` computes. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hgen, -⟩, -⟩
      imodintro
      isplitl [Hheld]
      · iexact Hheld
      isplitl [Hgen]
      · iexists _
        iexact Hgen
      · iexists ∅
        iexact Howes)
    (QY := fun c s => ∀ b ∈ Pipeline.ucRefs τ sig, s.mem (((c : Thread nD τ)).1, b) = W6 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W6 m ρ c) s')
      isplitl [Hheld] <;> iassumption)
    (hQ := fun s h c => h c)

/-- THE FRAME: the program runs (terminates, nothing faulting) and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

/-- THE RUN READ AT THE RESULT: the program runs, its result buffer ends at what the fold `W6` computes there, and every
    argument array ends as launched. -/
theorem value_run : θ_run defs (onTc (τ := τ) (main (F := F))) ⟨m, fun _ => 0, ρ⟩ (fun r => ∀ c : Dev nD,
      r.2.mem ((c.tc : Thread nD τ).loc main_v77) = W6 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v77 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Fr

end
-- ==== Proof.KI.Reg0.lean ====
/-
  The statistics call (50 grid points over row blocks of 2000): its frame half at the contents `V` the
  call is entered from. Two scratch rows carry the running column sums of the blocks and of their squares from
  one grid point to the next; the first point clears them, every point adds its block's column sums, and the last
  point copies them into the two output windows.
-/
import proofs.«119254_j89026082111679_1_alg».proof.Proof.Gen.KernelIdeal.Launch
import proofs.«119254_j89026082111679_1_alg».proof.Proof.Gen.KernelIdeal.Skeleton
import proofs.«119254_j89026082111679_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows after the body at position `n`: the column sums of blocks `0 … n` (first component) and
    of their squares (second), each accumulated onto the zero row the first point stores. -/
def accAt (c : Dev nD) : (n : ℕ) → n < cfg0.N → Vec F S1x128 .f32 × Vec F S1x128 .f32
  | 0, hn => (k0_pay3 (iblk0 V c 0 ⟨0, hn⟩) (k0_pay1 (F := F)), k0_pay4 (iblk0 V c 0 ⟨0, hn⟩) (k0_pay2 (F := F)))
  | n + 1, hn => (k0_pay3 (iblk0 V c 0 ⟨n + 1, hn⟩) (accAt c n (Nat.lt_of_succ_lt hn)).1,
      k0_pay4 (iblk0 V c 0 ⟨n + 1, hn⟩) (accAt c n (Nat.lt_of_succ_lt hn)).2)

theorem accAt_zero (c : Dev nD) (hn : 0 < cfg0.N) :
    accAt V c 0 hn = (k0_pay3 (iblk0 V c 0 ⟨0, hn⟩) (k0_pay1 (F := F)), k0_pay4 (iblk0 V c 0 ⟨0, hn⟩) (k0_pay2 (F := F))) := rfl

theorem accAt_succ (c : Dev nD) (n : ℕ) (hn : n + 1 < cfg0.N) :
    accAt V c (n + 1) hn = (k0_pay3 (iblk0 V c 0 ⟨n + 1, hn⟩) (accAt V c n (Nat.lt_of_succ_lt hn)).1,
      k0_pay4 (iblk0 V c 0 ⟨n + 1, hn⟩) (accAt V c n (Nat.lt_of_succ_lt hn)).2) := rfl

/-- The two scratch rows, listed: the scoped buffers of this call that are no staging buffer and that the invariant names. -/
abbrev scratch0L : List (Ref sig .tc) := [cc0_scratch0, cc0_scratch1]

/-- The call's invariant before position `n`: before the first point every scoped buffer that is no staging buffer
    at anything; afterwards the two scratch rows at the running sums the point before left, the other scoped
    buffers at anything; the generator register at some state throughout. -/
def PhiS0 (c : Dev nD) : (n : ℕ) → n ≤ cfg0.N → sProp 𝕄
  | 0, _ => Pipeline.ΦA spec0 c
  | n + 1, hn => iprop(owns (c : Thread nD τ) (Memref.whole cc0_scratch0 : Memref sig .tc .vmem S1x128 .f32) fullShare (accAt V c n hn).1
      ∗ owns (c : Thread nD τ) (Memref.whole cc0_scratch1 : Memref sig .tc .vmem S1x128 .f32) fullShare (accAt V c n hn).2
      ∗ Pipeline.scopedRestBut (Ix := Unit) (Name := ℕ) (U := UR sig nD τ) (Lvl := ℕ) (Val := Elt F) spec0 c scratch0L
      ∗ (∃ r, prngReg c r))

theorem PhiS0_zero (c : Dev nD) (h : 0 ≤ cfg0.N) : PhiS0 V c 0 h = Pipeline.ΦA spec0 c := rfl

theorem PhiS0_succ (c : Dev nD) (n : ℕ) (hn : n + 1 ≤ cfg0.N) :
    PhiS0 V c (n + 1) hn = iprop(owns (c : Thread nD τ) (Memref.whole cc0_scratch0 : Memref sig .tc .vmem S1x128 .f32) fullShare (accAt V c n hn).1
      ∗ owns (c : Thread nD τ) (Memref.whole cc0_scratch1 : Memref sig .tc .vmem S1x128 .f32) fullShare (accAt V c n hn).2
      ∗ Pipeline.scopedRestBut (Ix := Unit) (Name := ℕ) (U := UR sig nD τ) (Lvl := ℕ) (Val := Elt F) spec0 c scratch0L
      ∗ (∃ r, prngReg c r)) := rfl

/-- The call's proof data on core `c`: the arrays as the call finds them; after the body at point `t` the input
    window's buffer at its block, the two output windows' at the running sums (which the body stores there at the
    last point only: elsewhere the windows are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (accAt V c t.val t.isLt).1
    | ⟨2, _⟩ => (accAt V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (accAt V c t.val t.isLt).1 := by dsimp only [dat0]
theorem after0_2 (c : Dev nD) (t : Fin cfg0.N) : (dat0 V c).after 2 t = (accAt V c t.val t.isLt).2 := by dsimp only [dat0]

/-! ## The two tests of the body, over the grid -/

/-- The first conditional's test: it holds at the grid's first point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional's test: it holds at the grid's last point only. -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The input window is never idle. -/
theorem liveAt0_0 : ∀ t : Fin cfg0.N, cfg0.idle 0 (grid0.coords t) = false := by decide +kernel
/-- Off the last point the two output windows are idle and not written back; at the last point they are live. -/
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-! ## The invariant, opened -/

/-- The two scratch rows as memrefs. -/
abbrev scM0_0 : Memref sig .tc .vmem S1x128 .f32 := Memref.whole cc0_scratch0
abbrev scM0_1 : Memref sig .tc .vmem S1x128 .f32 := Memref.whole cc0_scratch1

/-- The class-A invariant with the two scratch rows split off as memrefs owned at some contents each. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c scratch0L)
          ∗ (∃ r, prngReg c r)) := by
  unfold Pipeline.ΦA
  rw [Pipeline.scopedRest_split_of_list spec0 c scratch0L (by decide) (by decide)]
  simp only [scM0_0, scM0_1, owns_whole]
  rfl

/-- Before a position that is not the first: the scratch rows at what the point before left. -/
theorem PhiS0_pos (c : Dev nD) (n : ℕ) (h : n ≤ cfg0.N) (hz : n ≠ 0) :
    PhiS0 V c n h = iprop(owns (c : Thread nD τ) scM0_0 fullShare (accAt V c (n - 1) (by omega)).1
      ∗ owns (c : Thread nD τ) scM0_1 fullShare (accAt V c (n - 1) (by omega)).2
      ∗ Pipeline.scopedRestBut (Ix := Unit) (Name := ℕ) (U := UR sig nD τ) (Lvl := ℕ) (Val := Elt F) spec0 c scratch0L
      ∗ (∃ r, prngReg c r)) := by
  cases n with
  | zero => exact absurd rfl hz
  | succ n => rfl

/-- The running sums at the first point: over the zero rows. -/
theorem accAt_first (c : Dev nD) (t : Fin cfg0.N) (h : t.val = 0) :
    accAt V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact absurd h (Nat.succ_ne_zero n)

/-- The running sums at a later point: over those of the point before. -/
theorem accAt_pos (c : Dev nD) (t : Fin cfg0.N) (h : t.val ≠ 0) :
    accAt V c t.val t.isLt = (k0_pay3 (iblk0 V c 0 t) (accAt V c (t.val - 1) (Nat.lt_of_le_of_lt (Nat.sub_le _ _) t.isLt)).1,
      k0_pay4 (iblk0 V c 0 t) (accAt V c (t.val - 1) (Nat.lt_of_le_of_lt (Nat.sub_le _ _) t.isLt)).2) := by
  obtain ⟨n, hn⟩ := t
  cases n with
  | zero => exact absurd rfl h
  | succ n => rfl

/-! ## The body on whole memrefs, case by case -/

theorem zeros0_rk2 : (![0, 0] : Fin 2 → Nat) = fun _ => 0 := funext fun a => by fin_cases a <;> rfl

/-- A store of a whole row, last, leaves its payload, read through any view of the row. -/
theorem read_row_store0 (m : Memref sig .tc .vmem S1x128 .f32) (f : m.view.ty.Contents (Elt F)) (w : Vec F S1x128 .f32)
    (L : List (View.Piece (Elt F) S1x128 .f32)) :
    m.view.read (Elt F) (m.view.writes (Elt F) f (⟨Rect.unit (s := S1x128) ![0, 0] S1x128.size inb_S1x128_S1x128_0_0, w⟩ :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.mem_cons_self .., View.mem_set_unit_zero (S := S1x128) zeros0_rk2 inb_S1x128_S1x128_0_0 y⟩
  exact (View.read_writes_eq_canon m.view f _ hcov).trans (View.canon_cons_unit_zero (S := S1x128) zeros0_rk2 inb_S1x128_S1x128_0_0 w L)

set_option maxHeartbeats 1000000 in
/-- At the first point: the scratch rows, at anything, end at the block's column sums over the zero rows. -/
theorem kernel0_first (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond0_0 i) (hc1 : ¬cond0_1 i)
    (x0 : Vec F S2000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k0_pay3 x0 (k0_pay1 (F := F)))
            ∗ owns (c : Thread nD τ) arg5 fullShare (k0_pay4 x0 (k0_pay2 (F := F)))) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d4, %f4, -, H4⟩, ⟨%d5, %f5, -, H5⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H4]
  · iexists _; isplitr
    swap; · iexact H4
    ipureintro
    sl_unfold_words
    rw [read_row_store0]
    simp only [View.readAt_eq_ld, harg1.read_unread, View.ld_unit_zero (S := S2000x128) zeros0_rk2, View.readCov_unit_zero (S := S1x128) _ zeros0_rk2]
  iexists _; isplitr
  swap; · iexact H5
  ipureintro
  sl_unfold_words
  rw [read_row_store0]
  simp only [View.readAt_eq_ld, harg1.read_unread, View.ld_unit_zero (S := S2000x128) zeros0_rk2, View.readCov_unit_zero (S := S1x128) _ zeros0_rk2]

set_option maxHeartbeats 1000000 in
/-- At a middle point: the scratch rows at `s0`, `s1` end at the block's column sums over them. -/
theorem kernel0_mid (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond0_0 i) (hc1 : ¬cond0_1 i)
    (x0 : Vec F S2000x128 .f32) (s0 s1 : Vec F S1x128 .f32) (K : PUnit → sProp 𝕄) :
    iprop(owns (c : Thread nD τ) arg1 fullShare x0 ∗ owns (c : Thread nD τ) arg4 fullShare s0 ∗ owns (c : Thread nD τ) arg5 fullShare s1
        ∗ (iprop(owns (c : Thread nD τ) arg1 fullShare x0 ∗ owns (c : Thread nD τ) arg4 fullShare (k0_pay3 x0 s0)
            ∗ owns (c : Thread nD τ) arg5 fullShare (k0_pay4 x0 s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H4]
  · iexists _; isplitr
    swap; · iexact H4
    ipureintro
    rw [read_row_store0]
    simp only [View.readAt_eq_ld, harg1.read_unread, harg4.read_unread, View.ld_unit_zero (S := S2000x128) zeros0_rk2, View.ld_unit_zero (S := S1x128) zeros0_rk2]
  iexists _; isplitr
  swap; · iexact H5
  ipureintro
  rw [read_row_store0]
  simp only [View.readAt_eq_ld, harg1.read_unread, harg5.read_unread, View.ld_unit_zero (S := S2000x128) zeros0_rk2, View.ld_unit_zero (S := S1x128) zeros0_rk2]

set_option maxHeartbeats 1000000 in
/-- At the last point: as at a middle point, and the two output rows, at anything, end at the scratch rows' contents. -/
theorem kernel0_last (c : Dev nD) (E : Set ℕ) (i : grid0.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond0_0 i) (hc1 : cond0_1 i)
    (x0 : Vec F S2000x128 .f32) (s0 s1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k0_pay3 x0 s0)
            ∗ owns (c : Thread nD τ) arg3 fullShare (k0_pay4 x0 s1) ∗ owns (c : Thread nD τ) arg4 fullShare (k0_pay3 x0 s0)
            ∗ owns (c : Thread nD τ) arg5 fullShare (k0_pay4 x0 s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr
    swap; · iexact H2
    ipureintro
    sl_unfold_words
    rw [read_row_store0]
    simp only [View.readAt_eq_ld, harg1.read_unread, harg4.read_unread, View.ld_unit_zero (S := S2000x128) zeros0_rk2, View.ld_unit_zero (S := S1x128) zeros0_rk2, View.readCov_unit_zero (S := S1x128) _ zeros0_rk2]
  isplitl [H3]
  · iexists _; isplitr
    swap; · iexact H3
    ipureintro
    sl_unfold_words
    rw [read_row_store0]
    simp only [View.readAt_eq_ld, harg1.read_unread, harg5.read_unread, View.ld_unit_zero (S := S2000x128) zeros0_rk2, View.ld_unit_zero (S := S1x128) zeros0_rk2, View.readCov_unit_zero (S := S1x128) _ zeros0_rk2]
  isplitl [H4]
  · iexists _; isplitr
    swap; · iexact H4
    ipureintro
    sl_unfold_words
    rw [read_row_store0]
    simp only [View.readAt_eq_ld, harg1.read_unread, harg4.read_unread, View.ld_unit_zero (S := S2000x128) zeros0_rk2, View.ld_unit_zero (S := S1x128) zeros0_rk2]
  iexists _; isplitr
  swap; · iexact H5
  ipureintro
  sl_unfold_words
  rw [read_row_store0]
  simp only [View.readAt_eq_ld, harg1.read_unread, harg5.read_unread, View.ld_unit_zero (S := S2000x128) zeros0_rk2, View.ld_unit_zero (S := S1x128) zeros0_rk2]

/-! ## The body obligation, at a generic point -/

/-- The input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first position the invariant is the class-A one. -/
theorem PhiS0_first (c : Dev nD) (n : ℕ) (h : n ≤ cfg0.N) (hz : n = 0) : PhiS0 V c n h = Pipeline.ΦA spec0 c := by
  subst hz; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input window's buffer holds its block; the two tests say which of the three cases
    the point is in. At the first point the invariant hands over the scratch rows at anything, later at the running
    sums the point before left; the body leaves them at this point's running sums, which the invariant takes back.
    Off the last point the output windows are idle and handed back as found; at the last point they are left at
    the running sums. The rest of the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  have hN : t.val < 50 := lt_of_lt_of_eq t.isLt (show cfg0.N = 50 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1),
      Dat.leavesExact_idle (dat0 V c) 2 t (idleAt0_2 t hc1) (noFlush0_2 t hc1)]
    rw [accAt_first V c t h0]; dsimp only
    rw [PhiS0_castSucc V c t, PhiS0_first V c _ _ h0, PhiA0_eq]
    iintro ⟨⟨⟨⟨⟨%e0, HS0⟩, ⟨%e1, HS1⟩⟩, Hrest⟩, Hg⟩, Ho, ⟨%d0, H0⟩, H1, H2⟩
    iapply (kernel0_first c Set.univ (grid0.coords t) _ _ _ _ _ _ _ _ _ _ hc0 hc1 (iblk0 V c 0 t) _)
    isplitl [H0]; · iexact H0
    isplitl [HS0]; · iexists _; iexact HS0
    isplitl [HS1]; · iexists _; iexact HS1
    iintro ⟨H0, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    iexact H2
  · have hc0 : ¬cond0_0 (grid0.coords t) := fun h => h0 ((hcond0_0 t).mp h)
    by_cases h1 : t.val = 49
    · have hc1 : cond0_1 (grid0.coords t) := (hcond0_1 t).mpr h1
      rw [show (dat0 V c).leavesExact 1 t = owns (c : Thread nD τ) (st0_1 t) fullShare ((dat0 V c).after 1 t) from by
          unfold Dat.leavesExact; rw [liveAt0_1 t hc1], after0_1]
      rw [show (dat0 V c).leavesExact 2 t = owns (c : Thread nD τ) (st0_2 t) fullShare ((dat0 V c).after 2 t) from by
          unfold Dat.leavesExact; rw [liveAt0_2 t hc1], after0_2]
      rw [accAt_pos V c t h0]; dsimp only
      rw [PhiS0_castSucc V c t, PhiS0_pos V c _ _ h0]
      iintro ⟨⟨HS0, HS1, Hrest, Hg⟩, Ho, ⟨%d0, H0⟩, ⟨%d1, H1⟩, ⟨%d2, H2⟩⟩
      iapply (kernel0_last c Set.univ (grid0.coords t) _ _ _ _ _ _ _ _ _ _ hc0 hc1 (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 1 t (idleAt0_1 t hc1) (noFlush0_1 t hc1),
        Dat.leavesExact_idle (dat0 V c) 2 t (idleAt0_2 t hc1) (noFlush0_2 t hc1)]
      rw [accAt_pos V c t h0]; dsimp only
      rw [PhiS0_castSucc V c t, PhiS0_pos V c _ _ h0]
      iintro ⟨⟨HS0, HS1, Hrest, Hg⟩, Ho, ⟨%d0, H0⟩, H1, H2⟩
      iapply (kernel0_mid c Set.univ (grid0.coords t) _ _ _ _ _ _ _ _ _ _ hc0 hc1 (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2

/-- The body obligation of the statistics call, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero]
  try exact Idealize.SL.BI.Entails.refl _

/-- After the last point the invariant gives the class-A invariant back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨HS0, HS1, Hrest, Hg⟩
  isplitl [HS0 HS1 Hrest]
  · isplitl [HS0 HS1]
    · isplitl [HS0]; · iexists _; iexact HS0
      iexists _; iexact HS1
    iexact Hrest
  iexact Hg

end Cert.KernelIdeal.Fr

end
-- ==== Proof.KI.Reg1.lean ====
/-
  The normalise-and-binarise call (50 grid points over row blocks of 2000): its frame half at the contents `V` the call is
  entered from. Each point reads its block of rows, the row of column means and the row of inverse deviations, and stores
  the sign of the normalised block.
-/
import proofs.«119254_j89026082111679_1_alg».proof.Proof.Gen.KernelIdeal.Launch
import proofs.«119254_j89026082111679_1_alg».proof.Proof.Gen.KernelIdeal.Skeleton
import proofs.«119254_j89026082111679_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data on core `c`: the arrays as the call finds them; after the body at point `t` each input
    window's buffer at its block and the output window's at the body's one stored value of the input blocks; the
    invariant the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 0 t) (iblk1 V c 1 t) (iblk1 V c 2 t) := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's one store -/

/-- The offsets of a whole-buffer access are all zero. -/
theorem zero_offsets : (![0, 0] : Fin 2 → Nat) = fun _ => 0 := funext fun a => by fin_cases a <;> rfl

/-- The whole output buffer, as the rectangle the body stores through. -/
abbrev rOut : Rect S2000x128 := Rect.unit (s := S2000x128) ![0, 0] S2000x128.size inb_S2000x128_S2000x128_0_0

/-- The one store covers the output buffer. -/
theorem cover_out (p : Vec F S2000x128 .f32) (y : S2000x128.Idx) :
    ∃ pc ∈ ([⟨rOut, p⟩] : List (View.Piece (Elt F) S2000x128 .f32)), y ∈ pc.1.set :=
  View.cover_of_tiled [⟨rOut, p⟩] S2000x128.size (by rfl) y

set_option maxHeartbeats 1000000 in
/-- The body on whole staging buffers, the three inputs' at contents `x0`, `x1`, `x2` and the output's at anything,
    runs to the continuation holding the inputs' as they were and the output's at the sign of the normalised block. -/
theorem sound_kernel1 (c : Dev nD) (E : Set ℕ) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k1_pay1 x0 x1 x2)) -∗ K ⟨⟩))
      ⊢ wp frame (wpE (defs₀ (F := F)) Variants.none c none) E
          (cc1__bn_apply_kernel i arg1 harg1 arg2 harg2 arg3 harg3 arg4 harg4) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero zero_offsets]
  simp only [View.readAt_eq_ld, View.ld_unit_zero (S := S2000x128) zero_offsets,
    View.ld_unit_zero (S := S1x128) zero_offsets]

/-! ## The body at a point -/

/-- What the body is called with at point `t`: the invariant, the core's debts, and each window's current staging
    buffer at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point `t`: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the body's triple applies at them; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The classifier call (50 grid points over row blocks of 2000): its frame half at the contents `V` the call is entered
  from. Each point reads its block of rows, the transposed weights and the bias row, and stores the block's log-softmax
  of the affine scores.
-/
import proofs.«119254_j89026082111679_1_alg».proof.Proof.Gen.KernelIdeal.Launch
import proofs.«119254_j89026082111679_1_alg».proof.Proof.Gen.KernelIdeal.Skeleton
import proofs.«119254_j89026082111679_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's proof data on core `c`: the arrays as the call finds them; after the body at point `t` each input
    window's buffer at its block and the output window's at the body's one stored value of the input blocks; the
    invariant the scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]

/-! ## The input windows' staging buffers -/

/-- An input window whose body leaves its block in place holds, at every point, what a fetch there would put in its
    buffer, fetched there or not: where it is not fetched its block index has not moved, so the previous point's
    block is this point's. The three input windows are uncut and never idle, so the fetched contents are the block. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's one store -/

/-- The offsets of every access of the body are zero on both axes. -/
theorem zero_off2 : (![0, 0] : Fin 2 → Nat) = fun _ => 0 := funext fun a => by fin_cases a <;> rfl

/-- The whole output buffer as a rectangle: offset zero, the buffer's own extents. -/
abbrev r2_out : Rect S2000x40 := Rect.unit (s := S2000x40) ![0, 0] S2000x40.size inb_S2000x40_S2000x40_0_0

/-- The one store is over the whole output buffer, so it covers it. -/
theorem cover2_3 (p : Vec F S2000x40 .f32) (y : S2000x40.Idx) :
    ∃ pc ∈ ([⟨r2_out, p⟩] : List (View.Piece (Elt F) S2000x40 .f32)), y ∈ pc.1.set :=
  View.cover_of_tiled [⟨r2_out, p⟩] S2000x40.size (by rfl) y

set_option maxHeartbeats 1000000 in
/-- The body on whole staging memrefs, the three inputs' at read contents `x0 x1 x2` and the output's at anything, runs
    to the continuation holding the inputs' as they were and the output's at the one stored value of the inputs. -/
theorem sound_kernel2 (c : Dev nD) (E : Set ℕ) (i : grid2.Coords)
    (arg1 : Memref sig .tc .vmem S2000x128 .f32) (harg1 : arg1.IsWhole)
    (arg2 : Memref sig .tc .vmem S128x40 .f32) (harg2 : arg2.IsWhole)
    (arg3 : Memref sig .tc .vmem S1x40 .f32) (harg3 : arg3.IsWhole)
    (arg4 : Memref sig .tc .vmem S2000x40 .f32) (harg4 : arg4.IsWhole)
    (x0 : Vec F S2000x128 .f32) (x1 : Vec F S128x40 .f32) (x2 : Vec F S1x40 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := F)) Variants.none c none) E
          (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _), View.canon_unit_zero zero_off2]
  simp only [View.readAt_eq_ld, View.ld_unit_zero (S := S2000x128) zero_off2, View.ld_unit_zero (S := S128x40) zero_off2,
    View.ld_unit_zero (S := S1x40) zero_off2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' memrefs hold their blocks, so the body's triple applies at those blocks;
    the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
/-
  The buffer contents at every boundary between two items of the program, as a fold from the launch memory: a stretch of
  host operations applies its operations; a kernel call leaves its arrays at what its write-backs fold to and every other
  buffer as it found it. The items, in order: the statistics call; 12 host operations (means, variances, inverse
  deviations); the normalise-and-binarise call; 46 and then 35 host operations (the three rounds of propagation over the
  graph and the classifier's operands); the classifier call.
-/
import proofs.«119254_j89026082111679_1_alg».proof.Proof.Gen.KernelIdeal.Launch
import proofs.«119254_j89026082111679_1_alg».proof.Proof.Gen.KernelIdeal.Skeleton
import proofs.«119254_j89026082111679_1_alg».proof.Proof.Gen.KernelIdeal.Points
import proofs.«119254_j89026082111679_1_alg».proof.Proof.KI.Reg0
import proofs.«119254_j89026082111679_1_alg».proof.Proof.KI.Reg1
import proofs.«119254_j89026082111679_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At call 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b

/-- After the 12 host operations between the first two calls. -/
abbrev W2 : Dev nD → Valuation τ sig (Elt F) := fun c => StableHlo.after main_part0_ops0 (W1 m ρ c)
/-- The same read at the TensorCore's references. -/
abbrev V2 : (c : Dev nD) → (b : Ref sig .tc) → Buf (Elt F) ((c : Thread nD τ).loc b) := fun c b => W2 m ρ c b

/-- At call 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b

/-- After the first 46 host operations between the last two calls. -/
abbrev W4 : Dev nD → Valuation τ sig (Elt F) := fun c => StableHlo.after main_part0_ops1 (W3 m ρ c)
/-- The same read at the TensorCore's references. -/
abbrev V4 : (c : Dev nD) → (b : Ref sig .tc) → Buf (Elt F) ((c : Thread nD τ).loc b) := fun c b => W4 m ρ c b

/-- After the remaining 35 host operations before the last call. -/
abbrev W5 : Dev nD → Valuation τ sig (Elt F) := fun c => StableHlo.after main_part1_ops0 (W4 m ρ c)
/-- The same read at the TensorCore's references. -/
abbrev V5 : (c : Dev nD) → (b : Ref sig .tc) → Buf (Elt F) ((c : Thread nD τ).loc b) := fun c b => W5 m ρ c b

/-- At call 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b

end Cert.KernelIdeal.Fr

end
-- ==== Proof.KI.Run.lean ====
/-
  The program's run, item by item: each stretch of host operations from the contents its predecessor left, each kernel call
  from its own frame half, chained from the launch memory to the return. Every weakly fair execution terminates, nothing
  faulting, with every unscoped buffer at the last boundary's contents.
-/
import proofs.«119254_j89026082111679_1_alg».proof.Proof.Gen.KernelIdeal.Launch
import proofs.«119254_j89026082111679_1_alg».proof.Proof.Gen.KernelIdeal.Skeleton
import proofs.«119254_j89026082111679_1_alg».proof.Proof.Gen.KernelIdeal.Points
import proofs.«119254_j89026082111679_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each call leaves, read at its exit boundary

At a call's exit each of its window arrays holds what the pipeline's write-backs folded to, and every other buffer
what it held when the call was entered. -/

theorem left0 (c : Dev nD) (w : Fin cfg0.W) : (dat0 (V0 m ρ) c).arrAt w cfg0.N = V1 m ρ c (Pipeline.arrRef spec0 w) :=
  (W1_arr m ρ c w).symm
theorem bypass0 (c : Dev nD) : ∀ b, b ∉ Finset.univ.image (Pipeline.arrRef spec0) → V1 m ρ c b = V0 m ρ c b :=
  fun b hb => W1_of_ne m ρ c b fun w hw => hb (Finset.mem_image.mpr ⟨w, Finset.mem_univ _, hw⟩)

theorem left1 (c : Dev nD) (w : Fin cfg1.W) : (dat1 (V2 m ρ) c).arrAt w cfg1.N = V3 m ρ c (Pipeline.arrRef spec1 w) :=
  (W3_arr m ρ c w).symm
theorem bypass1 (c : Dev nD) : ∀ b, b ∉ Finset.univ.image (Pipeline.arrRef spec1) → V3 m ρ c b = V2 m ρ c b :=
  fun b hb => W3_of_ne m ρ c b fun w hw => hb (Finset.mem_image.mpr ⟨w, Finset.mem_univ _, hw⟩)

theorem left2 (c : Dev nD) (w : Fin cfg2.W) : (dat2 (V5 m ρ) c).arrAt w cfg2.N = V6 m ρ c (Pipeline.arrRef spec2 w) :=
  (W6_arr m ρ c w).symm
theorem bypass2 (c : Dev nD) : ∀ b, b ∉ Finset.univ.image (Pipeline.arrRef spec2) → V6 m ρ c b = V5 m ρ c b :=
  fun b hb => W6_of_ne m ρ c b fun w hw => hb (Finset.mem_image.mpr ⟨w, Finset.mem_univ _, hw⟩)

/-! ## The arguments at the last boundary

No host operation writes an argument, and a call either reads it through an input window (whose array the pipeline
leaves as found) or does not name it: the fold at an argument's buffer walks back, boundary by boundary, to the
launch memory. -/

set_option maxHeartbeats 4000000 in
/-- Argument 0 ends as launched: it is the input window 0 of the first two calls, whose pipelines leave an input array
    as they found it; the last call does not name it and no host operation writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

set_option maxHeartbeats 4000000 in
/-- Argument 1 ends as launched: no call has it among its windows and no host operation writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

set_option maxHeartbeats 4000000 in
/-- Argument 2 ends as launched: no call has it among its windows and no host operation writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg2) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

set_option maxHeartbeats 4000000 in
/-- Argument 3 ends as launched: no call has it among its windows and no host operation writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [main_part1_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W3 m ρ c (Proc.devRef .tc main_arg3) := StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-! ## The calls' proof data and the state a core carries between items -/

/-- No call prefetches a table: the admissible contents are the trivial ones. -/
abbrev adm : (p : Fin 3) → (pcfgs (F := F) p).Adm := fun p => (cfgs p).toPCfg_adm

/-- Each call's proof data at the contents the call is entered from. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V5 m ρ) c

abbrev 𝒱₀ : Variants := Variants.none
/-- No level is assigned: no core ever owes another anything. -/
abbrev L : GSem nD τ sig → Finset Unit := fun _ => ∅
abbrev lv : GSem nD τ sig → Unit → ℕ := fun _ _ => 0
/-- Beside the buffers a core carries its generator register, at some state, and the record that it owes nothing. -/
abbrev R (c : Dev nD) : sProp 𝕄 := iprop((∃ r, prngReg c r) ∗ ∃ W, owes (c : Thread nD τ) (0 : CellTallies nD τ sig Unit) W)

/-- A stretch of host operations as a segment: from the unscoped buffers at `W` to the same buffers at the
    operations' result from `W`, `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W R

/-- None of the 12 operations between the first two calls allocates a buffer. -/
theorem main_part0_ops0_fresh : (main_part0_ops0 : List (HloOp τ sig (Elt F))).Forall fun op => op.fresh = ∅ := by
  simp only [List.Forall]; repeat' constructor
set_option maxHeartbeats 4000000 in
/-- None of the 46 operations after the second call allocates a buffer. -/
theorem main_part0_ops1_fresh : (main_part0_ops1 : List (HloOp τ sig (Elt F))).Forall fun op => op.fresh = ∅ := by
  simp only [List.Forall]; repeat' constructor
set_option maxHeartbeats 4000000 in
/-- None of the 35 operations before the last call allocates a buffer. -/
theorem main_part1_ops0_fresh : (main_part1_ops0 : List (HloOp τ sig (Elt F))).Forall fun op => op.fresh = ∅ := by
  simp only [List.Forall]; repeat' constructor

/-- An unscoped TensorCore reference is one of the buffers a core carries between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the return, apart from owing nothing: every unscoped buffer at `W6`, the generator register
    at some state. -/
abbrev Tₙ (c : Dev nD) : sProp 𝕄 := iprop(StableHlo.held (c : Thread nD τ) (Pipeline.ucRefs τ sig) (W6 m ρ c) ∗ ∃ r, prngReg c r)

/-! ## The three calls as segments -/

set_option backward.isDefEq.respectTransparency.types false in
/-- Call 0 as a segment of the run: entered with every unscoped buffer at `W0`, left with them at `W1`. At entry
    the call's window arrays are taken out of the unscoped buffers and the generator register goes into the call's
    invariant; at exit the arrays come back at what the write-backs folded to, beside the buffers that bypassed the
    call, and the register comes out again. The core owes nothing throughout; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hout_of := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    refine (?_ : _ ⊢ Pipeline.ΦA spec0 c).trans (hin0 (V0 m ρ) c)
    unfold Pipeline.ΦA
    iintro ⟨Hgen, -, Hscoped⟩
    isplitl [Hscoped]
    · iexact Hscoped
    · iexact Hgen
  hout c := by
    rw [Pipeline.ownSems0_none]
    refine (hout0 (V0 m ρ) c).trans ?_
    unfold Pipeline.ΦA
    iintro ⟨Hscoped, Hgen⟩
    isplitl [Hgen]
    · iexact Hgen
    isplitr
    · iempintro
    · iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (bypass0 m ρ c)
    rw [Pipeline.unscopedBufs_held] at hback
    iintro ⟨Harr, Howes, Hgen, Hoth⟩
    imodintro
    isplitl [Harr Hoth]
    · iapply hback
      isplitl [Harr] <;> iassumption
    isplitl [Hgen]
    · iexact Hgen
    unfold Pipeline.Dat.owesAt Pipeline.owesWithin
    icases Howes with ⟨%T, -, Howes⟩
    iexists T
    iexact Howes

set_option backward.isDefEq.respectTransparency.types false in
/-- Call 1 as a segment of the run: entered with every unscoped buffer at `W2`, left with them at `W3`. At entry
    the call's window arrays are taken out of the unscoped buffers and the generator register goes into the call's
    invariant; at exit the arrays come back at what the write-backs folded to, beside the buffers that bypassed the
    call, and the register comes out again. The core owes nothing throughout; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hout_of := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    rw [show (pdats m ρ 1 c).Φ 0 = Pipeline.ΦA spec1 c from rfl]
    unfold Pipeline.ΦA
    iintro ⟨Hgen, -, Hscoped⟩
    isplitl [Hscoped]
    · iexact Hscoped
    · iexact Hgen
  hout c := by
    rw [Pipeline.ownSems0_none, show (pdats m ρ 1 c).Φ (Fin.last _) = Pipeline.ΦA spec1 c from rfl]
    unfold Pipeline.ΦA
    iintro ⟨Hscoped, Hgen⟩
    isplitl [Hgen]
    · iexact Hgen
    isplitr
    · iempintro
    · iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (bypass1 m ρ c)
    rw [Pipeline.unscopedBufs_held] at hback
    iintro ⟨Harr, Howes, Hgen, Hoth⟩
    imodintro
    isplitl [Harr Hoth]
    · iapply hback
      isplitl [Harr] <;> iassumption
    isplitl [Hgen]
    · iexact Hgen
    unfold Pipeline.Dat.owesAt Pipeline.owesWithin
    icases Howes with ⟨%T, -, Howes⟩
    iexists T
    iexact Howes

set_option backward.isDefEq.respectTransparency.types false in
/-- Call 2 as a segment of the run: entered with every unscoped buffer at `W5`, left with them at `W6`. At entry
    the call's window arrays are taken out of the unscoped buffers and the generator register goes into the call's
    invariant; at exit the arrays come back at what the write-backs folded to, beside the buffers that bypassed the
    call, and the register comes out again. The core owes nothing throughout; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hout_of := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hout_of
    iintro ⟨⟨Hheld, Hgen, Howes⟩, -, -⟩
    ihave Hsplit := hout_of $$ Hheld
    icases Hsplit with ⟨Harr, Hoth⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr
      · ipureintro
        exact fun _ _ => Or.inl trivial
      · iexact Howes
    isplitl [Hgen]
    · iexact Hgen
    · iexact Hoth
  hin c := by
    rw [show (pdats m ρ 2 c).Φ 0 = Pipeline.ΦA spec2 c from rfl]
    unfold Pipeline.ΦA
    iintro ⟨Hgen, -, Hscoped⟩
    isplitl [Hscoped]
    · iexact Hscoped
    · iexact Hgen
  hout c := by
    rw [Pipeline.ownSems0_none, show (pdats m ρ 2 c).Φ (Fin.last _) = Pipeline.ΦA spec2 c from rfl]
    unfold Pipeline.ΦA
    iintro ⟨Hscoped, Hgen⟩
    isplitl [Hgen]
    · iexact Hgen
    isplitr
    · iempintro
    · iexact Hscoped
  hexit c := by
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (bypass2 m ρ c)
    rw [Pipeline.unscopedBufs_held] at hback
    iintro ⟨Harr, Howes, Hgen, Hoth⟩
    imodintro
    isplitl [Harr Hoth Hgen]
    · isplitl [Harr Hoth]
      · iapply hback
        isplitl [Harr] <;> iassumption
      · iexact Hgen
    unfold Pipeline.Dat.owesAt Pipeline.owesWithin
    icases Howes with ⟨%T, -, Howes⟩
    iexists T
    iexact Howes

/-! ## The program as its six segments, and the run -/

/-- The six items in order: call 0; the 12 operations; call 1; the 46 operations; the 35 operations; call 2. -/
abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .region (reg1 m ρ),
    .host (hseg main_part0_ops1 main_part0_ops1_sub main_part0_ops1_fresh (W3 m ρ)),
    .host (hseg main_part1_ops0 main_part1_ops0_sub main_part1_ops0_fresh (W4 m ρ)),
    .region (reg2 m ρ) ]

/-- The program is the run of its segments: both are the chain of the same six items. -/
theorem main_run (c : Dev nD) : main (F := F) c = Pipeline.Seg.run (segs m ρ) := (main_chain_windows c).trans (by chain_rfl)

set_option backward.isDefEq.respectTransparency.types false in
/-- THE RUN: from any memory with zero counters every weakly fair execution of the program on the TensorCores terminates,
    nothing faulting, and every final state holds each unscoped buffer at the contents the fold `W6` computes. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hgen, -⟩, -⟩
      imodintro
      isplitl [Hheld]
      · iexact Hheld
      isplitl [Hgen]
      · iexists _
        iexact Hgen
      · iexists ∅
        iexact Howes)
    (QY := fun c s => ∀ b ∈ Pipeline.ucRefs τ sig, s.mem (((c : Thread nD τ)).1, b) = W6 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W6 m ρ c) s')
      isplitl [Hheld] <;> iassumption)
    (hQ := fun s h c => h c)

/-- THE FRAME: the program runs (terminates, nothing faulting) and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

/-- THE RUN READ AT THE RESULT: the program runs, its result buffer ends at what the fold `W6` computes there, and every
    argument array ends as launched. -/
theorem value_run : θ_run defs (onTc (τ := τ) (main (F := F))) ⟨m, fun _ => 0, ρ⟩ (fun r => ∀ c : Dev nD,
      r.2.mem ((c.tc : Thread nD τ).loc main_v77) = W6 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v77 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Fr

end
-- ==== Proof.Val.Consts.lean ====
/-
  The float constants the value statements spell, as the extended reals their patterns denote: the row count 100000, the
  float zero, and minus infinity.
-/
import Idealize.ShloMosaic.PureOps.Ideal

noncomputable section

namespace Cert.Val.Consts

open Idealize.ShloMosaic

/-- The pattern of `+0.0` denotes `0`. -/
theorem ofBits_zero : Ideal.ofBits .f32 0x00000000#32 = 0 := by
  simp [Ideal.ofBits, Ideal.ieee]

/-- The pattern of `100000.0` denotes the real `100000`. -/
theorem ofBits_n5 : Ideal.ofBits .f32 0x47C35000#32 = ((100000 : ℝ) : EReal) := by
  simp [Ideal.ofBits, Ideal.ieee, -EReal.coe_mul]; norm_num

/-- The pattern of plus infinity denotes `⊤`. -/
theorem ofBits_inf : Ideal.ofBits .f32 0x7F800000#32 = (⊤ : EReal) := by
  simp [Ideal.ofBits, Ideal.ieee]

/-- The pattern of minus infinity denotes `⊥`. -/
theorem ofBits_ninf : Ideal.ofBits .f32 0xFF800000#32 = ⊥ := by
  simp [Ideal.ofBits, Ideal.ieee]

end Cert.Val.Consts

end
-- ==== Proof.Val.Finite.lean ====
/-
  From the precondition — every float input's absolute values below plus infinity — to what the value claim uses: every
  entry of the feature array is a real number.
-/
import proofs.«119254_j89026082111679_1_alg».proof.Pre_finite_inputs
import proofs.«119254_j89026082111679_1_alg».proof.Proof.Gen.Pre_finite_inputs
import Idealize.ShloMosaic.PureOps.Ideal
import Idealize.ShloMosaic.Lib.ValueIdx
import Idealize.ShloMosaic.Lib.ReduceAll
import proofs.«119254_j89026082111679_1_alg».proof.Proof.Val.Consts

noncomputable section

namespace Cert.Val

open Idealize.ShloMosaic Idealize.ShloMosaic.ValueIdx

/-- An extended real whose absolute value max a (-a) is strictly below plus infinity is a real: at ⊥ and at ⊤ the
    absolute value is ⊤, which is not below ⊤. -/
theorem real_of_abs_lt_inf (a : EReal)
    (h : Ideal.cmp .olt (max a (-a)) (Ideal.ofBits .f32 0x7F800000#32) = 1#1) : ∃ r : ℝ, a = (r : EReal) := by
  rw [Consts.ofBits_inf] at h
  induction a using EReal.rec with
  | bot => simp [Ideal.cmp] at h
  | top => simp [Ideal.cmp] at h
  | coe r => exact ⟨r, rfl⟩

/-- A rank-0 shape has one index. -/
instance : Subsingleton Cert.Pre_finite_inputs.S_.Idx := ⟨fun a b => funext fun d => d.elim0⟩

/-- Where the precondition holds of the four inputs at the ideal instance, every entry of the first is a real. -/
theorem finite_of_pre (x0 : FVec Ideal Cert.Pre_finite_inputs.S100000x128 .f32) (x1 : FVec Ideal Cert.Pre_finite_inputs.S40x128 .f32)
    (x2 : FVec Ideal Cert.Pre_finite_inputs.S40 .f32) (x3 : IVec Cert.Pre_finite_inputs.S2x1600000 32)
    (h : Cert.Pre_finite_inputs.fn (F := Ideal) x0 x1 x2 x3 = fun _ => 1#1) :
    ∀ i, ∃ r : ℝ, x0 i = (r : EReal) := by
  -- the predicate's one word is the conjunction of three tests; the first is the test of the feature array
  have h0 := congrFun h ValueIdx.ix0
  dsimp only [Cert.Pre_finite_inputs.fn] at h0
  obtain ⟨h01, _⟩ := IntOp.andi_eq_one.1 h0
  obtain ⟨ha, _⟩ := IntOp.andi_eq_one.1 h01
  intro i
  -- a conjunction over all entries that is 1 is 1 at entry i: |x0 i| < +inf
  have hi := Host.reduce_andi_all _ _ _ _ _ ha i
  exact real_of_abs_lt_inf (x0 i) hi

end Cert.Val

end
-- ==== Proof.Val.Spec.lean ====
/-
  The batch-normalise-and-binarise step, as functions of the feature array over the extended reals, in the two arrangements the
  two programs compute it in. Both subtract the column mean and multiply by the reciprocal root of the column variance plus a
  constant; one takes the variance as the mean of the squares minus the squared mean, the other as the mean of the squared
  deviations. Over real entries the two variances are one number, so the binarised arrays agree.
-/
import Idealize.ShloMosaic.PureOps.Ideal
import Idealize.ShloMosaic.PureOps.Ideal.Laws
import Idealize.ShloMosaic.Lib.ValueIdx
import proofs.«119254_j89026082111679_1_alg».proof.Proof.Val.Consts

noncomputable section

namespace Cert.Val

open Idealize.ShloMosaic Idealize.ShloMosaic.ValueIdx

/-- The feature array's shape: 100000 rows of 128 columns. -/
abbrev SX : Shape := ⟨2, ![100000, 128]⟩

/-- The row count as both programs spell it, 100000.0, and the variance offset, the float nearest 1e-5. -/
def n5 : EReal := Ideal.ofBits .f32 0x47C35000#32
def eps : EReal := Ideal.ofBits .f32 0x3727C5AC#32
/-- The zero both host sums start from. -/
def z0 : EReal := Ideal.ofBits .f32 0x00000000#32

/-- Column `q`'s sum, and the sum of its squares. -/
def colSum (x : FVec Ideal SX .f32) (q : Fin 128) : EReal := ∑ k : Fin 100000, x (ix2 k q)
def colSumSq (x : FVec Ideal SX .f32) (q : Fin 128) : EReal := ∑ k : Fin 100000, x (ix2 k q) * x (ix2 k q)

/-- The first arrangement: mean, then the reciprocal root of (mean of squares − squared mean + offset). -/
def meanK (x : FVec Ideal SX .f32) (q : Fin 128) : EReal := Ideal.div (colSum x q) n5
def invK (x : FVec Ideal SX .f32) (q : Fin 128) : EReal :=
  Ideal.rsqrt (Ideal.div (colSumSq x q) n5 - meanK x q * meanK x q + eps)
def hK (x : FVec Ideal SX .f32) (p : Fin 100000) (q : Fin 128) : EReal :=
  Ideal.sign ((x (ix2 p q) - meanK x q) * invK x q)

/-- The second arrangement: mean (a sum started from zero), then the reciprocal root of (mean of squared deviations + offset). -/
def meanR (x : FVec Ideal SX .f32) (q : Fin 128) : EReal := Ideal.div (z0 + colSum x q) n5
def varR (x : FVec Ideal SX .f32) (q : Fin 128) : EReal :=
  Ideal.div (z0 + ∑ k : Fin 100000, (x (ix2 k q) - meanR x q) * (x (ix2 k q) - meanR x q)) n5
def invR (x : FVec Ideal SX .f32) (q : Fin 128) : EReal := Ideal.rsqrt (varR x q + eps)
def hR (x : FVec Ideal SX .f32) (p : Fin 100000) (q : Fin 128) : EReal :=
  Ideal.sign ((x (ix2 p q) - meanR x q) * invR x q)

/-- The row count denotes the real `100000`, and the float zero denotes `0`. -/
theorem n5_eq : n5 = ((100000 : ℝ) : EReal) := Consts.ofBits_n5
theorem z0_eq : z0 = 0 := Consts.ofBits_zero

/-- The coercion of the reals commutes with a finite sum. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The variance identity over the reals: the mean of the squared deviations from the mean is the mean of the squares less the
    squared mean, for `100000` entries. -/
theorem var_identity (a : Fin 100000 → ℝ) :
    (∑ k, (a k - (∑ j, a j) / 100000) * (a k - (∑ j, a j) / 100000)) * (1 / 100000)
      = (∑ k, a k * a k) * (1 / 100000) - ((∑ j, a j) / 100000) * ((∑ j, a j) / 100000) := by
  generalize hS : (∑ j, a j) = S
  have h1 : ∑ k : Fin 100000, (a k - S / 100000) * (a k - S / 100000)
      = ∑ k, a k * a k - 2 * (S / 100000) * S + 100000 * ((S / 100000) * (S / 100000)) := by
    have hk : ∀ k, (a k - S / 100000) * (a k - S / 100000)
        = a k * a k - 2 * (S / 100000) * a k + (S / 100000) * (S / 100000) := fun k => by ring
    simp only [hk]
    rw [Finset.sum_add_distrib, Finset.sum_sub_distrib, ← Finset.mul_sum, hS, Finset.sum_const, Finset.card_univ,
      Fintype.card_fin, nsmul_eq_mul]
    norm_num
  rw [h1]; ring

/-- Over real entries the two arrangements are one function: Σ(x − μ)² = Σx² − n·μ² with μ = Σx / n, n = 100000. -/
theorem hK_eq_hR (x : FVec Ideal SX .f32) (hfin : ∀ i, ∃ r : ℝ, x i = (r : EReal)) (p : Fin 100000) (q : Fin 128) :
    hK x p q = hR x p q := by
  choose r hr using hfin
  have hn : (100000 : ℝ) ≠ 0 := by norm_num
  have hx : ∀ k : Fin 100000, x (ix2 k q) = ((r (ix2 k q) : ℝ) : EReal) := fun k => hr _
  have hsum : colSum x q = ((∑ k : Fin 100000, r (ix2 k q) : ℝ) : EReal) := by
    unfold colSum; rw [coe_sum]; exact Finset.sum_congr rfl (fun k _ => hx k)
  have hsq : colSumSq x q = ((∑ k : Fin 100000, r (ix2 k q) * r (ix2 k q) : ℝ) : EReal) := by
    unfold colSumSq; rw [coe_sum]
    refine Finset.sum_congr rfl (fun k _ => ?_); rw [hx k, EReal.coe_mul]
  have hmK : meanK x q = (((∑ k : Fin 100000, r (ix2 k q)) / 100000 : ℝ) : EReal) := by
    unfold meanK; rw [hsum, n5_eq, Ideal.div_coe hn, ← EReal.coe_mul, ← div_eq_mul_one_div]
  have hmR : meanR x q = meanK x q := by unfold meanR meanK; rw [z0_eq, zero_add]
  have hdev : (∑ k : Fin 100000, (x (ix2 k q) - meanR x q) * (x (ix2 k q) - meanR x q))
      = ((∑ k : Fin 100000, (r (ix2 k q) - (∑ j : Fin 100000, r (ix2 j q)) / 100000)
          * (r (ix2 k q) - (∑ j : Fin 100000, r (ix2 j q)) / 100000) : ℝ) : EReal) := by
    rw [coe_sum]
    refine Finset.sum_congr rfl (fun k _ => ?_)
    rw [hmR, hmK, hx k, ← EReal.coe_sub, ← EReal.coe_mul]
  have hvar : varR x q = Ideal.div (colSumSq x q) n5 - meanK x q * meanK x q := by
    unfold varR
    rw [hdev, z0_eq, zero_add, hsq, hmK, n5_eq, Ideal.div_coe hn, Ideal.div_coe hn, ← EReal.coe_mul, ← EReal.coe_mul,
      ← EReal.coe_mul, ← EReal.coe_sub, var_identity]
  have hinv : invR x q = invK x q := by unfold invR invK; rw [hvar]
  unfold hK hR; rw [hmR, hinv]

end Cert.Val

end
-- ==== Proof.Val.Stats.lean ====
/-
  What the statistics call leaves in its two output rows, at the ideal instance: column by column, the sum of the
  feature array's 100000 entries and the sum of their squares — fifty blocks of 2000 rows, each block's column sums added
  onto the running rows.
-/
import proofs.«119254_j89026082111679_1_alg».proof.Proof.KI.Fold
import proofs.«119254_j89026082111679_1_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

open Idealize.ShloMosaic.Pipeline (Dat)

/-! ## The body's payloads at an index -/

/-- The zero word is the extended real zero. -/
theorem k0_zero_word : (Scalar.ofBits .f32 0x00000000#32 : Ideal .f32) = (0 : EReal) := by
  exact Consts.ofBits_zero

/-- The two zero rows the first point stores. -/
theorem k0_pay1_apply (u : Fin 1) (q : Fin 128) : k0_pay1 (F := Ideal) (ix2 u q) = (0 : EReal) := by
  unfold k0_pay1
  refine (congrFun (shapeCast_self _ _) _).trans ?_
  exact k0_zero_word
theorem k0_pay2_apply (u : Fin 1) (q : Fin 128) : k0_pay2 (F := Ideal) (ix2 u q) = (0 : EReal) := by
  unfold k0_pay2
  refine (congrFun (shapeCast_self _ _) _).trans ?_
  exact k0_zero_word

/-- A point's first update: the running row plus the block's column sums. -/
theorem k0_pay3_apply (x : FVec Ideal S2000x128 .f32) (s : FVec Ideal S1x128 .f32) (q : Fin 128) :
    k0_pay3 (F := Ideal) x s (ix2 (0 : Fin 1) q) = (s (ix2 (0 : Fin 1) q) + ∑ r : Fin 2000, x (ix2 r q) : EReal) := by
  unfold k0_pay3
  refine (congrFun (shapeCast_self _ _) _).trans ?_
  refine (addf_apply _ _ _).trans ?_
  refine congrArg (fun z : EReal => (s (ix2 (0 : Fin 1) q) : EReal) + z) ?_
  refine (shapeCast_a_1a_apply _ _ (0 : Fin 1) q).trans ?_
  refine (Ideal.multiReduction_add_single x _ reduces_S2000x128_S128 _ _ (ix1 q)).trans ?_
  refine Finset.sum_congr rfl fun r _ => congrArg x ?_
  funext a; match a with | ⟨0, _⟩ => rfl | ⟨1, _⟩ => rfl

/-- A point's second update: the running row plus the block's column sums of squares. -/
theorem k0_pay4_apply (x : FVec Ideal S2000x128 .f32) (s : FVec Ideal S1x128 .f32) (q : Fin 128) :
    k0_pay4 (F := Ideal) x s (ix2 (0 : Fin 1) q) = (s (ix2 (0 : Fin 1) q) + ∑ r : Fin 2000, x (ix2 r q) * x (ix2 r q) : EReal) := by
  unfold k0_pay4
  refine (congrFun (shapeCast_self _ _) _).trans ?_
  refine (addf_apply _ _ _).trans ?_
  refine congrArg (fun z : EReal => (s (ix2 (0 : Fin 1) q) : EReal) + z) ?_
  refine (shapeCast_a_1a_apply _ _ (0 : Fin 1) q).trans ?_
  refine (Ideal.multiReduction_add_single (mulf x x) _ reduces_S2000x128_S128 _ _ (ix1 q)).trans ?_
  refine Finset.sum_congr rfl fun r _ => ?_
  refine (congrArg (mulf x x) (?_ : _ = ix2 r q)).trans (mulf_apply x x (ix2 r q))
  funext a; match a with | ⟨0, _⟩ => rfl | ⟨1, _⟩ => rfl

/-! ## The feature array's blocks -/

variable (V : (c : Dev nD) → (b : Ref sig .tc) → Buf (Elt Ideal) ((c : Thread nD τ).loc b))

/-- Column `q` of the feature array as a sequence: entry `k` for a row `k` of the array, zero beyond. -/
def statsColSeq (x : FVec Ideal S100000x128 .f32) (q : Fin 128) (k : ℕ) : EReal :=
  if h : k < 100000 then x (ix2 ⟨k, h⟩ q) else 0

/-- The input window's block index at point `t` is (t, 0). -/
theorem stats_idx0_0 : ∀ t : Fin cfg0.N, win0_0.index t 0 = t.val ∧ win0_0.index t 1 = 0 :=
  (by decide +kernel : ∀ t : Fin grid0.N, win0_0.index t 0 = t.val ∧ win0_0.index t 1 = 0)

/-- Block `t` of the feature array at (r, q) is the array at row 2000 t + r. -/
theorem stats_iblk0_apply (t : Fin cfg0.N) (r : Fin 2000) (q : Fin 128) :
    (iblk0 V c 0 t : FVec Ideal S2000x128 .f32) (ix2 r q) = statsColSeq (V c main_arg0) q (2000 * t.val + r.val) := by
  have hN : t.val < 50 := lt_of_lt_of_eq t.isLt (show cfg0.N = 50 from N_0)
  have hlt : 2000 * t.val + r.val < 100000 := by have := r.isLt; omega
  unfold statsColSeq
  rw [dif_pos hlt]
  unfold iblk0
  rw [View.read_apply]
  show V c main_arg0 _ = V c main_arg0 _
  congr 1
  funext a
  apply Fin.ext
  match a with
  | ⟨0, _⟩ => show win0_0.index t 0 * 2000 + 1 * r.val = 2000 * t.val + r.val; rw [(stats_idx0_0 t).1]; omega
  | ⟨1, _⟩ => show win0_0.index t 1 * 128 + 1 * q.val = q.val; rw [(stats_idx0_0 t).2]; omega

/-- A block's column sum is the sequence's sum over the block's 2000 rows. -/
theorem stats_blockSum_eq (t : Fin cfg0.N) (q : Fin 128) (g : EReal → EReal) :
    (∑ r : Fin 2000, g ((iblk0 V c 0 t : FVec Ideal S2000x128 .f32) (ix2 r q)))
      = ∑ r ∈ Finset.range 2000, g (statsColSeq (V c main_arg0) q (2000 * t.val + r)) := by
  rw [Finset.sum_range (fun r => g (statsColSeq (V c main_arg0) q (2000 * t.val + r)))]
  exact Finset.sum_congr rfl fun r _ => congrArg g (stats_iblk0_apply c V t r q)

/-! ## The running rows in closed form -/

/-- After point `n` the first running row holds, column by column, the sum of the first 2000 (n + 1) entries, -/
theorem accAt_fst : ∀ (n : ℕ) (hn : n < cfg0.N) (q : Fin 128),
    ((accAt V c n hn).1 : FVec Ideal S1x128 .f32) (ix2 (0 : Fin 1) q)
      = ∑ k ∈ Finset.range (2000 * (n + 1)), statsColSeq (V c main_arg0) q k
  | 0, hn, q => by
    rw [accAt_zero]
    refine (k0_pay3_apply (iblk0 V c 0 ⟨0, hn⟩) (k0_pay1 (F := Ideal)) q).trans ?_
    rw [k0_pay1_apply, zero_add, stats_blockSum_eq c V ⟨0, hn⟩ q (fun z => z)]
    simp only [Fin.val_mk, Nat.mul_zero, Nat.zero_add, Nat.mul_one]
  | n + 1, hn, q => by
    rw [accAt_succ]
    refine (k0_pay3_apply (iblk0 V c 0 ⟨n + 1, hn⟩) (accAt V c n (Nat.lt_of_succ_lt hn)).1 q).trans ?_
    rw [accAt_fst n (Nat.lt_of_succ_lt hn) q, stats_blockSum_eq c V ⟨n + 1, hn⟩ q (fun z => z)]
    rw [show 2000 * (n + 1 + 1) = 2000 * (n + 1) + 2000 from by omega, Finset.sum_range_add]

/-- and the second the sum of their squares. -/
theorem accAt_snd : ∀ (n : ℕ) (hn : n < cfg0.N) (q : Fin 128),
    ((accAt V c n hn).2 : FVec Ideal S1x128 .f32) (ix2 (0 : Fin 1) q)
      = ∑ k ∈ Finset.range (2000 * (n + 1)), statsColSeq (V c main_arg0) q k * statsColSeq (V c main_arg0) q k
  | 0, hn, q => by
    rw [accAt_zero]
    refine (k0_pay4_apply (iblk0 V c 0 ⟨0, hn⟩) (k0_pay2 (F := Ideal)) q).trans ?_
    rw [k0_pay2_apply, zero_add, stats_blockSum_eq c V ⟨0, hn⟩ q (fun z => z * z)]
    simp only [Fin.val_mk, Nat.mul_zero, Nat.zero_add, Nat.mul_one]
  | n + 1, hn, q => by
    rw [accAt_succ]
    refine (k0_pay4_apply (iblk0 V c 0 ⟨n + 1, hn⟩) (accAt V c n (Nat.lt_of_succ_lt hn)).2 q).trans ?_
    rw [accAt_snd n (Nat.lt_of_succ_lt hn) q, stats_blockSum_eq c V ⟨n + 1, hn⟩ q (fun z => z * z)]
    rw [show 2000 * (n + 1 + 1) = 2000 * (n + 1) + 2000 from by omega, Finset.sum_range_add]

/-- The sequence summed over all 100000 rows is the column's sum. -/
theorem sum_statsColSeq (x : FVec Ideal S100000x128 .f32) (q : Fin 128) (g : EReal → EReal) :
    (∑ k ∈ Finset.range 100000, g (statsColSeq x q k)) = ∑ k : Fin 100000, g (x (ix2 k q)) := by
  rw [Finset.sum_range (fun k => g (statsColSeq x q k))]
  refine Finset.sum_congr rfl fun k _ => congrArg g ?_
  unfold statsColSeq
  rw [dif_pos k.isLt]

/-! ## The two output rows after the call -/

/-- The grid's last point. -/
abbrev tLast0 : Fin cfg0.N := ⟨49, by rw [show cfg0.N = 50 from N_0]; decide⟩

/-- The output rows' final contents: the running rows after the last point. -/
abbrev res0_1 : Buf (Elt Ideal) ((c : Thread nD τ).loc main_v0_0) := (accAt V c 49 tLast0.isLt).1
abbrev res0_2 : Buf (Elt Ideal) ((c : Thread nD τ).loc main_v0_1) := (accAt V c 49 tLast0.isLt).2

/-- The one write-back of the first output row, at the last point, writes the running row: the window's block (0, 0)
    of a [1, 128] array is the array. -/
theorem flushed0_1_eq (t : Fin cfg0.N) (hf : (cfg0.win 1).flush t = true) :
    (dat0 V c).flushed 1 t = ((cfg0.win 1).blk t).view.read (Elt Ideal) (res0_1 c V) := by
  have hN : cfg0.N = 50 := N_0
  have h49 : t.val = 49 := by have := (flush0_1 t).mp hf; have := t.isLt; omega
  obtain rfl : t = tLast0 := Fin.ext h49
  show (cfg0.win 1).cut (grid0.coords tLast0) ((dat0 V c).after 1 tLast0) = _
  rw [after0_1]
  have hz' : (fun a => win0_1.index tLast0 a * main_v0_0.ty.shape.size a) = fun _ => 0 := funext fun a => by fin_cases a <;> decide +kernel
  exact (Memref.read_access_unit_zero (Elt Ideal) main_v0_0 hz' (fun a => by rw [congrFun hz' a]; simp) (res0_1 c V)).symm

theorem flushed0_2_eq (t : Fin cfg0.N) (hf : (cfg0.win 2).flush t = true) :
    (dat0 V c).flushed 2 t = ((cfg0.win 2).blk t).view.read (Elt Ideal) (res0_2 c V) := by
  have hN : cfg0.N = 50 := N_0
  have h49 : t.val = 49 := by have := (flush0_2 t).mp hf; have := t.isLt; omega
  obtain rfl : t = tLast0 := Fin.ext h49
  show (cfg0.win 2).cut (grid0.coords tLast0) ((dat0 V c).after 2 tLast0) = _
  rw [after0_2]
  have hz' : (fun a => win0_2.index tLast0 a * main_v0_1.ty.shape.size a) = fun _ => 0 := funext fun a => by fin_cases a <;> decide +kernel
  exact (Memref.read_access_unit_zero (Elt Ideal) main_v0_1 hz' (fun a => by rw [congrFun hz' a]; simp) (res0_2 c V)).symm

/-- So the first output row ends at the running row after the last point: that point's block covers the array. -/
theorem final0_1 : (dat0 V c).arrAt 1 cfg0.N = res0_1 c V :=
  (dat0 V c).arrAt_eq_of_cover 1 (res0_1 c V) (flushed0_1_eq c V) fun i =>
    ⟨tLast0, (flush0_1 tLast0).mpr rfl, by
      show i ∈ ((View.whole main_v0_0).slice (win0_1.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_1.index tLast0 0 * win0_1.size 0 ≤ (i 0 : Nat) ∧ (i 0 : Nat) < win0_1.index tLast0 0 * win0_1.size 0 + win0_1.xsize (grid0.coords tLast0) 0
                  rw [show win0_1.index tLast0 0 * win0_1.size 0 = 0 from by decide +kernel, show win0_1.xsize (grid0.coords tLast0) 0 = 1 from by decide +kernel]; omega
      | ⟨1, _⟩ => show win0_1.index tLast0 1 * win0_1.size 1 ≤ (i 1 : Nat) ∧ (i 1 : Nat) < win0_1.index tLast0 1 * win0_1.size 1 + win0_1.xsize (grid0.coords tLast0) 1
                  rw [show win0_1.index tLast0 1 * win0_1.size 1 = 0 from by decide +kernel, show win0_1.xsize (grid0.coords tLast0) 1 = 128 from by decide +kernel]; omega⟩

/-- and the second likewise. -/
theorem final0_2 : (dat0 V c).arrAt 2 cfg0.N = res0_2 c V :=
  (dat0 V c).arrAt_eq_of_cover 2 (res0_2 c V) (flushed0_2_eq c V) fun i =>
    ⟨tLast0, (flush0_2 tLast0).mpr rfl, by
      show i ∈ ((View.whole main_v0_1).slice (win0_2.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 1 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 128 from by decide +kernel]; omega⟩

/-! ## The statements -/

/-- After the statistics call its first output row holds each column's sum. -/
theorem W1_sum (q : Fin 128) :
    W1 (F := Ideal) m ρ c (Proc.devRef .tc main_v0_0) (ix2 (0 : Fin 1) q) = colSum (m ((c.tc : Thread nD τ).loc main_arg0)) q := by
  refine (congrFun (W1_arr (F := Ideal) m ρ c 1) (ix2 (0 : Fin 1) q)).trans ?_
  rw [final0_1 c (V0 m ρ)]
  refine (accAt_fst c (V0 m ρ) 49 tLast0.isLt q).trans ?_
  exact sum_statsColSeq (m ((c.tc : Thread nD τ).loc main_arg0)) q (fun z => z)

/-- After the statistics call its second output row holds each column's sum of squares. -/
theorem W1_sumsq (q : Fin 128) :
    W1 (F := Ideal) m ρ c (Proc.devRef .tc main_v0_1) (ix2 (0 : Fin 1) q) = colSumSq (m ((c.tc : Thread nD τ).loc main_arg0)) q := by
  refine (congrFun (W1_arr (F := Ideal) m ρ c 2) (ix2 (0 : Fin 1) q)).trans ?_
  rw [final0_2 c (V0 m ρ)]
  refine (accAt_snd c (V0 m ρ) 49 tLast0.isLt q).trans ?_
  exact sum_statsColSeq (m ((c.tc : Thread nD τ).loc main_arg0)) q (fun z => z * z)

end Cert.Val

end
-- ==== Proof.Val.Apply.lean ====
/-
  What the normalise-and-binarise call leaves in its output array, at the ideal instance: entry by entry the sign of the
  entry minus its column's mean, times the reciprocal root of the column's mean of squares minus the squared mean plus the
  offset — the means and roots being what the twelve host operations before the call make of the statistics rows.
-/
import proofs.«119254_j89026082111679_1_alg».proof.Proof.KI.Fold
import proofs.«119254_j89026082111679_1_alg».proof.Proof.Val.Spec
import proofs.«119254_j89026082111679_1_alg».proof.Proof.Val.Stats
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The body's stored value at an entry. -/
theorem k1_pay1_apply (v0 : Vec Ideal S2000x128 .f32) (v1 v5 : Vec Ideal S1x128 .f32) (r : Fin 2000) (q : Fin 128) :
    k1_pay1 v0 v1 v5 (ix2 r q) = Ideal.sign ((v0 (ix2 r q) - v1 (ix2 (0 : Fin 1) q)) * v5 (ix2 (0 : Fin 1) q)) := by
  unfold k1_pay1
  refine (Ideal.jnp_sign_eq_sign_f32 _).trans ?_
  rw [mulf_apply, subf_apply, shapeCast_self, shapeCast_self, broadcastTo_1b_ab_apply, broadcastTo_1b_ab_apply]

section Blocks

variable (V : (c : Dev nD) → (b : Ref sig .tc) → Buf (Elt Ideal) ((c : Thread nD τ).loc b))

/-- The second call's output array as one function of the arrays the call is entered with. -/
abbrev G1 (a0 : S100000x128.Idx → EReal) (a1 a2 : S1x128.Idx → EReal) : S100000x128.Idx → EReal := fun i =>
  Ideal.sign ((a0 i - a1 (ix2 (0 : Fin 1) (i 1 : Fin 128))) * a2 (ix2 (0 : Fin 1) (i 1 : Fin 128)))

/-- That function at an entry. -/
theorem G1_apply (a0 : S100000x128.Idx → EReal) (a1 a2 : S1x128.Idx → EReal) (p : Fin 100000) (q : Fin 128) :
    G1 a0 a1 a2 (ix2 p q) = Ideal.sign ((a0 (ix2 p q) - a1 (ix2 (0 : Fin 1) q)) * a2 (ix2 (0 : Fin 1) q)) := rfl

/-- The four windows' block indices, decided over the fifty points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of that function. -/
theorem flushed1_3_eq (t : Fin cfg1.N) :
    (dat1 V c).flushed 3 t = ((cfg1.win 3).blk t).view.read (Elt Ideal) (G1 (V c main_arg0) (V c main_v2) (V c main_v9)) := by
  show (cfg1.win 3).cut (grid1.coords t) ((dat1 V c).after 3 t) = _
  rw [after1_3]
  obtain ⟨e00, e01, e10, e11, e20, e21, e30, e31⟩ := idx_facts1 t
  funext j
  obtain ⟨r, q, rfl⟩ : ∃ (r : Fin 2000) (q : Fin 128), j = (ix2 r q : S2000x128.Idx) :=
    ⟨j 0, j 1, eq_ix2 (n0 := 2000) (n1 := 128) j⟩
  have h0 : ((cfg1.win 0).blk t).view.emb (ix2 r q) = ((cfg1.win 3).blk t).view.emb (ix2 r q) := by
    funext a; apply Fin.ext
    match a with
    | ⟨0, _⟩ => show win1_0.index t (0 : Fin 2) * 2000 + 1 * r.val = win1_3.index t (0 : Fin 2) * 2000 + 1 * r.val; omega
    | ⟨1, _⟩ => show win1_0.index t (1 : Fin 2) * 128 + 1 * q.val = win1_3.index t (1 : Fin 2) * 128 + 1 * q.val; omega
  have h1 : ((cfg1.win 1).blk t).view.emb (ix2 (0 : Fin 1) q) = (ix2 (0 : Fin 1) q : S1x128.Idx) := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 (0 : Fin 1) q) = (ix2 (0 : Fin 1) q : S1x128.Idx) := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((((cfg1.win 3).blk t).view.emb (ix2 r q)) 1 : Fin 128) = q :=
    Fin.ext (show win1_3.index t (1 : Fin 2) * 128 + 1 * q.val = q.val by omega)
  have key : ∀ (a0 : S100000x128.Idx → EReal) (a1 a2 : S1x128.Idx → EReal),
      Ideal.sign ((a0 (((cfg1.win 0).blk t).view.emb (ix2 r q)) - a1 (((cfg1.win 1).blk t).view.emb (ix2 (0 : Fin 1) q)))
          * a2 (((cfg1.win 2).blk t).view.emb (ix2 (0 : Fin 1) q)))
        = G1 a0 a1 a2 (((cfg1.win 3).blk t).view.emb (ix2 r q)) := by
    intro a0 a1 a2
    show _ = Ideal.sign ((a0 (((cfg1.win 3).blk t).view.emb (ix2 r q))
        - a1 (ix2 (0 : Fin 1) ((((cfg1.win 3).blk t).view.emb (ix2 r q)) 1 : Fin 128)))
        * a2 (ix2 (0 : Fin 1) ((((cfg1.win 3).blk t).view.emb (ix2 r q)) 1 : Fin 128)))
    rw [h0, h1, h2, h3]
  show k1_pay1 (iblk1 V c 0 t) (iblk1 V c 1 t) (iblk1 V c 2 t) (ix2 r q) = G1 _ _ _ (((cfg1.win 3).blk t).view.emb (ix2 r q))
  rw [k1_pay1_apply]
  exact key (V c main_arg0) (V c main_v2) (V c main_v9)

/-- An index of the output array is in point `t`'s block iff each coordinate is in the block's range on its axis. -/
theorem mem_blk1_3 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v10).slice (win1_3.rect t)).set ↔ _
  rw [View.set_slice_whole, Rect.mem_set_unit]
  exact Iff.rfl

/-- Every entry of the output array is in the block of the point its row falls in. -/
theorem cover1_3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  obtain ⟨-, -, -, -, -, -, e30, e31⟩ := idx_facts1 ⟨(i 0).val / 2000, by rw [hN]; omega⟩
  rw [mem_blk1_3]
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e31]; omega

/-- The output array after the second call. -/
theorem final1_3 : (dat1 V c).arrAt 3 cfg1.N = G1 (V c main_arg0) (V c main_v2) (V c main_v9) :=
  (dat1 V c).arrAt_eq_of_cover 3 _ (fun t _ => flushed1_3_eq c V t) cover1_3

end Blocks

/-- The mean row after the twelve host operations. -/
theorem W2_v2 : (W2 (F := Ideal) m ρ c (Proc.devRef .tc main_v2) : S1x128.Idx → EReal)
    = Host.divf (W1 (F := Ideal) m ρ c (Proc.devRef .tc main_v0_0))
        (broadcastInDim S1x128 ![] bcast_S_S1x128 (constant (F := Ideal) S_ .f32 0x47C35000#32)) := by
  show StableHlo.after main_part0_ops0 (W1 m ρ c) (Proc.devRef .tc main_v2) = _
  after_results

/-- The inverse-deviation row after the twelve host operations. -/
theorem W2_v9 : (W2 (F := Ideal) m ρ c (Proc.devRef .tc main_v9) : S1x128.Idx → EReal)
    = Host.rsqrt (addf (subf (Host.divf (W1 (F := Ideal) m ρ c (Proc.devRef .tc main_v0_1))
          (broadcastInDim S1x128 ![] bcast_S_S1x128 (constant (F := Ideal) S_ .f32 0x47C35000#32)))
        (mulf (Host.divf (W1 (F := Ideal) m ρ c (Proc.devRef .tc main_v0_0))
            (broadcastInDim S1x128 ![] bcast_S_S1x128 (constant (F := Ideal) S_ .f32 0x47C35000#32)))
          (Host.divf (W1 (F := Ideal) m ρ c (Proc.devRef .tc main_v0_0))
            (broadcastInDim S1x128 ![] bcast_S_S1x128 (constant (F := Ideal) S_ .f32 0x47C35000#32)))))
      (broadcastInDim S1x128 ![] bcast_S_S1x128 (constant (F := Ideal) S_ .f32 0x3727C5AC#32))) := by
  show StableHlo.after main_part0_ops0 (W1 m ρ c) (Proc.devRef .tc main_v9) = _
  after_results

/-- The feature array is untouched up to the second call. -/
theorem W2_arg0 : W2 (F := Ideal) m ρ c (Proc.devRef .tc main_arg0) = m ((c.tc : Thread nD τ).loc main_arg0) :=
  calc W2 (F := Ideal) m ρ c (Proc.devRef .tc main_arg0)
    _ = W1 m ρ c (Proc.devRef .tc main_arg0) := StableHlo.after_of_forall_not_mem _ _ (List.forall_iff_forall_mem.mp (by
          simp only [main_part0_ops0, List.Forall, StableHlo.nullary_writes, StableHlo.unary_writes, StableHlo.binary_writes,
            Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c.tc : Thread nD τ).loc main_arg0) := rfl

/-- A constant row read at a column. -/
theorem bcast_const_apply (b : BitVec 32) (q : Fin 128) :
    (broadcastInDim S1x128 ![] bcast_S_S1x128 (constant (F := Ideal) S_ .f32 b) : S1x128.Idx → EReal) (ix2 (0 : Fin 1) q)
      = Ideal.ofBits .f32 b := by
  rw [broadcastInDim_apply _ _ _ _ ix0 (fun a => a.elim0)]
  rfl

/-- The mean row at a column is the column's mean. -/
theorem W2_v2_at (q : Fin 128) :
    (W2 (F := Ideal) m ρ c (Proc.devRef .tc main_v2) : S1x128.Idx → EReal) (ix2 (0 : Fin 1) q)
      = meanK (m ((c.tc : Thread nD τ).loc main_arg0)) q := by
  unfold meanK n5
  rw [W2_v2]
  exact congrArg₂ Ideal.div (W1_sum m ρ c q) (bcast_const_apply _ q)

/-- The inverse-deviation row at a column is the reciprocal root of the column's mean of squares minus its squared
    mean plus the offset. -/
theorem W2_v9_at (q : Fin 128) :
    (W2 (F := Ideal) m ρ c (Proc.devRef .tc main_v9) : S1x128.Idx → EReal) (ix2 (0 : Fin 1) q)
      = invK (m ((c.tc : Thread nD τ).loc main_arg0)) q := by
  unfold invK meanK n5 eps
  rw [W2_v9]
  have hs := W1_sum m ρ c q
  have hq := W1_sumsq m ρ c q
  have hn := bcast_const_apply 0x47C35000#32 q
  have he := bcast_const_apply 0x3727C5AC#32 q
  exact congrArg Ideal.rsqrt (congrArg₂ (· + ·) (congrArg₂ (· - ·) (congrArg₂ Ideal.div hq hn)
    (congrArg₂ (· * ·) (congrArg₂ Ideal.div hs hn) (congrArg₂ Ideal.div hs hn))) he)

/-- After the second call its output array holds the first arrangement's binarised entries. -/
theorem W3_at (p : Fin 100000) (q : Fin 128) :
    W3 (F := Ideal) m ρ c (Proc.devRef .tc main_v10) (ix2 p q) = hK (m ((c.tc : Thread nD τ).loc main_arg0)) p q := by
  have e : W3 (F := Ideal) m ρ c (Proc.devRef .tc main_v10)
      = G1 (W2 (F := Ideal) m ρ c (Proc.devRef .tc main_arg0)) (W2 (F := Ideal) m ρ c (Proc.devRef .tc main_v2))
          (W2 (F := Ideal) m ρ c (Proc.devRef .tc main_v9)) :=
    (W3_arr m ρ c 3).trans (final1_3 c (V2 m ρ))
  rw [e, G1_apply, W2_arg0, W2_v2_at, W2_v9_at]
  rfl

end Cert.Val

end
-- ==== Proof.Val.Prop.lean ====
/-
  The host operations between the second and the third call: the three rounds of propagation over the graph, as ONE function
  of the binarised features and the edge list, and the classifier's two operands, the transposed weights and the bias as a row.
-/
import proofs.«119254_j89026082111679_1_alg».proof.Proof.KI.Fold
import Idealize.ShloMosaic.Lib.StableHlo.Run

set_option maxRecDepth 16384

noncomputable section

namespace Cert.Val

open Cert.KernelIdeal Cert.KernelIdeal.Gen Cert.KernelIdeal.Fr
open Idealize.ShloMosaic Idealize.ShloMosaic.TcCoe Idealize.SL.Sem

variable {F : FTy → Type} [FloatOps F]

/-! ## The propagation, piece by piece -/

/-- The end points of the edges on row `r` of the edge list, followed by the node numbers 0 … 99999: the edges with one
    self-loop per node appended. -/
def srcIdx (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
      ⟨S100000, iotaInDim S100000 32 0⟩]
    concatenates_S1600000_S100000_S1700000_d0

/-- The same for the second row: the edges' other end points, then the self-loops'. -/
def tgtIdx (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
      ⟨S100000, iotaInDim S100000 32 0⟩]
    concatenates_S1600000_S100000_S1700000_d0

/-- An index list as a gather reads it: a negative entry counted from the end (100000 added), as a column. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- An index list as a scatter reads it: as a column. -/
def colIdx (s : IVec S1700000 32) : IVec S1700000x1 32 :=
  broadcastInDim S1700000x1 ![0] bcast_S1700000_S1700000x1_0 s

/-- Per node the inverse square root of its degree: ones added up at the second end points. -/
def degInv (e : IVec S2x1600000 32) : FVec F S100000 .f32 :=
  Host.rsqrt (Host.scatterAdd scatter_S100000_S1700000x1_S1700000_n_0_0_1
    (broadcastInDim S100000 ![] bcast_S_S100000 (constant S_ .f32 0x00000000#32))
    (colIdx (tgtIdx e))
    (broadcastInDim S1700000 ![] bcast_S_S1700000 (constant S_ .f32 0x3F800000#32)))

/-- Per edge its weight, the product of the two end points' inverse root degrees, as a column. -/
def edgeW (e : IVec S2x1600000 32) : FVec F S1700000x1 .f32 :=
  broadcastInDim S1700000x1 ![0] bcast_S1700000_S1700000x1_0
    (mulf (Host.gather gather_S100000_S1700000x1_S1700000_n_0_n_n_0_1_1 (degInv (F := F) e) (wrapIdx (srcIdx e)))
      (Host.gather gather_S100000_S1700000x1_S1700000_n_0_n_n_0_1_1 (degInv (F := F) e) (wrapIdx (tgtIdx e))))

/-- Per edge the first end point's feature row times the edge's weight. -/
def msgs (e : IVec S2x1600000 32) (h : FVec F S100000x128 .f32) : FVec F S1700000x128 .f32 :=
  mulf (broadcastInDim S1700000x128 ![0, 1] bcast_S1700000x1_S1700000x128_0_1 (edgeW (F := F) e))
    (Host.gather gather_S100000x128_S1700000x1_S1700000x128_1_0_n_n_0_1_1128 h (wrapIdx (srcIdx e)))

/-- The weighted rows added up at the second end points, from zero. -/
def gatherUp (e : IVec S2x1600000 32) (u : FVec F S1700000x128 .f32) : FVec F S100000x128 .f32 :=
  Host.scatterAdd scatter_S100000x128_S1700000x1_S1700000x128_1_0_0_1
    (broadcastInDim S100000x128 ![] bcast_S_S100000x128 (constant S_ .f32 0x00000000#32))
    (colIdx (tgtIdx e)) u

/-- One round of propagation. -/
def round1 (e : IVec S2x1600000 32) (h : FVec F S100000x128 .f32) : FVec F S100000x128 .f32 :=
  gatherUp e (msgs e h)

/-- Three rounds of normalised neighbourhood sums over the graph with self-loops added, as the host operations compute
    them from the node features `h` and the edge list `e`. -/
def prop3 (h : FVec F S100000x128 .f32) (e : IVec S2x1600000 32) : FVec F S100000x128 .f32 :=
  round1 e (round1 e (round1 e h))

/-! ## The two stretches of host operations, read at the buffers the last call and the later rounds take

Each stretch's result at a buffer is the composition of the operations that feed it, applied to what the stretch was
entered with. -/

set_option maxHeartbeats 4000000 in
/-- After the 46 operations the first end points (with the self-loops') stand in their buffer. -/
theorem ops1_v14 (V : Valuation τ sig (Elt F)) :
    StableHlo.after main_part0_ops1 V (Proc.devRef .tc main_v14) = srcIdx (V (Proc.devRef .tc main_arg3)) := by
  open StableHlo in after_results_simp
  rfl
set_option maxHeartbeats 4000000 in
/-- After the 46 operations the second end points (with the self-loops') stand in their buffer. -/
theorem ops1_v17 (V : Valuation τ sig (Elt F)) :
    StableHlo.after main_part0_ops1 V (Proc.devRef .tc main_v17) = tgtIdx (V (Proc.devRef .tc main_arg3)) := by
  open StableHlo in after_results_simp
  rfl
set_option maxHeartbeats 4000000 in
/-- After the 46 operations the zero word stands in its buffer. -/
theorem ops1_cst9 (V : Valuation τ sig (Elt F)) :
    StableHlo.after main_part0_ops1 V (Proc.devRef .tc main_cst_9) = constant S_ .f32 0x00000000#32 := by
  open StableHlo in after_results_simp

set_option maxHeartbeats 4000000 in
/-- After the 46 operations the edge weights stand in their buffer. -/
theorem ops1_v38 (V : Valuation τ sig (Elt F)) :
    StableHlo.after main_part0_ops1 V (Proc.devRef .tc main_v38) = edgeW (V (Proc.devRef .tc main_arg3)) := by
  open StableHlo in after_results_simp
  rfl

set_option maxHeartbeats 4000000 in
/-- After the 46 operations the per-edge weighted feature rows of the first round stand in their buffer, computed from the
    features and the edge list the stretch was entered with. -/
theorem ops1_v47 (V : Valuation τ sig (Elt F)) :
    StableHlo.after main_part0_ops1 V (Proc.devRef .tc main_v47)
      = msgs (V (Proc.devRef .tc main_arg3)) (V (Proc.devRef .tc main_v10)) := by
  open StableHlo in after_results_simp
  rfl

set_option maxHeartbeats 4000000 in
/-- None of the 46 operations writes argument 1. -/
theorem ops1_arg1 (V : Valuation τ sig (Elt F)) :
    StableHlo.after main_part0_ops1 V (Proc.devRef .tc main_arg1) = V (Proc.devRef .tc main_arg1) :=
  StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))

set_option maxHeartbeats 4000000 in
/-- None of the 46 operations writes argument 2. -/
theorem ops1_arg2 (V : Valuation τ sig (Elt F)) :
    StableHlo.after main_part0_ops1 V (Proc.devRef .tc main_arg2) = V (Proc.devRef .tc main_arg2) :=
  StableHlo.after_of_forall_not_mem _ _ (List.forall_iff_forall_mem.mp (by
          simp only [main_part0_ops1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))

set_option maxHeartbeats 4000000 in
/-- The 35 operations, entered with the end points, the weights, the zero word and the first round's weighted rows in their
    buffers, leave the third round's sums: they finish the first round and run two more. -/
theorem ops2_v74 (V : Valuation τ sig (Elt F)) (e : IVec S2x1600000 32)
    (h9 : V (Proc.devRef .tc main_cst_9) = constant S_ .f32 0x00000000#32)
    (h14 : V (Proc.devRef .tc main_v14) = srcIdx e) (h17 : V (Proc.devRef .tc main_v17) = tgtIdx e)
    (h38 : V (Proc.devRef .tc main_v38) = edgeW e) :
    StableHlo.after main_part1_ops0 V (Proc.devRef .tc main_v74)
      = round1 e (round1 e (gatherUp e (V (Proc.devRef .tc main_v47)))) := by
  open StableHlo in after_results_simp
  rw [h9, h14, h17, h38]
  rfl

set_option maxHeartbeats 4000000 in
/-- The 35 operations leave the transposed weights, read off argument 1 as they found it. -/
theorem ops2_v75 (V : Valuation τ sig (Elt F)) :
    StableHlo.after main_part1_ops0 V (Proc.devRef .tc main_v75)
      = transpose S128x40 [1, 0] (V (Proc.devRef .tc main_arg1)) transposes_S40x128_S128x40_1_0 := by
  open StableHlo in after_results_simp
set_option maxHeartbeats 4000000 in
/-- The 35 operations leave the bias as a row, read off argument 2 as they found it. -/
theorem ops2_v76 (V : Valuation τ sig (Elt F)) :
    StableHlo.after main_part1_ops0 V (Proc.devRef .tc main_v76)
      = shapeCast S1x40 (V (Proc.devRef .tc main_arg2)) shapeCasts_S40_S1x40 := by
  open StableHlo in after_results_simp
  rfl

/-! ## The fold at the last call's operands -/

variable (m : (ℓ : Loc nD τ sig) → Buf (Elt F) ℓ) (ρ : Dev nD → PrngReg) (c : Dev nD)

/-- Argument 1 at the second call's exit is as launched: neither of the first two calls has it among its windows and none of
    the 12 host operations between them writes it. -/
theorem W3_main_arg1 : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg1) := W1_of_ne m ρ c main_arg1 (by decide)
    _ = m ((c.tc : Thread nD τ).loc main_arg1) := rfl

/-- Argument 2 at the second call's exit is as launched: neither of the first two calls has it among its windows and none of
    the 12 host operations between them writes it. -/
theorem W3_main_arg2 : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg2) := W1_of_ne m ρ c main_arg2 (by decide)
    _ = m ((c.tc : Thread nD τ).loc main_arg2) := rfl

/-- Argument 3 at the second call's exit is as launched: neither of the first two calls has it among its windows and none of
    the 12 host operations between them writes it. -/
theorem W3_main_arg3 : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem _ _ (List.forall_iff_forall_mem.mp (by
          simp only [main_part0_ops0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = W0 m ρ c (Proc.devRef .tc main_arg3) := W1_of_ne m ρ c main_arg3 (by decide)
    _ = m ((c.tc : Thread nD τ).loc main_arg3) := rfl

theorem W5_v74 : W5 m ρ c (Proc.devRef .tc main_v74) = prop3 (W3 m ρ c (Proc.devRef .tc main_v10)) (m ((c.tc : Thread nD τ).loc main_arg3)) := by
  have he := W3_main_arg3 m ρ c
  refine (ops2_v74 (StableHlo.after main_part0_ops1 (W3 m ρ c)) (m ((c.tc : Thread nD τ).loc main_arg3)) (ops1_cst9 _)
    ((ops1_v14 _).trans (congrArg srcIdx he)) ((ops1_v17 _).trans (congrArg tgtIdx he))
    ((ops1_v38 _).trans (congrArg edgeW he))).trans ?_
  rw [ops1_v47, he]
  rfl

theorem W5_v75 : W5 m ρ c (Proc.devRef .tc main_v75) = transpose S128x40 [1, 0] (m ((c.tc : Thread nD τ).loc main_arg1)) transposes_S40x128_S128x40_1_0 := by
  refine (ops2_v75 (StableHlo.after main_part0_ops1 (W3 m ρ c))).trans ?_
  rw [ops1_arg1, W3_main_arg1]

theorem W5_v76 : W5 m ρ c (Proc.devRef .tc main_v76) = shapeCast S1x40 (m ((c.tc : Thread nD τ).loc main_arg2)) shapeCasts_S40_S1x40 := by
  refine (ops2_v76 (StableHlo.after main_part0_ops1 (W3 m ρ c))).trans ?_
  rw [ops1_arg2, W3_main_arg2]

end Cert.Val

end
-- ==== Proof.Val.SpecCls.lean ====
/-
  The classifier step, as functions of coordinates over the extended reals: a row's affine scores against the transposed
  weights, the row's maximum, and the log-softmax of the scores shifted by it. The two programs differ only in how a sum and
  a maximum are started: one starts its sum of exponentials from the float zero and joins the maximum once more with minus
  infinity; both are identities.
-/
import proofs.«119254_j89026082111679_1_alg».proof.Proof.Val.Spec
import proofs.«119254_j89026082111679_1_alg».proof.Proof.Val.Consts

noncomputable section

namespace Cert.Val

open Idealize.ShloMosaic Idealize.ShloMosaic.ValueIdx

/-- Minus infinity, the value both maxima start from. -/
def ninf : EReal := Ideal.ofBits .f32 0xFF800000#32

/-- Minus infinity denotes `⊥`. -/
theorem ninf_eq : ninf = ⊥ := Consts.ofBits_ninf

variable (h : Fin 100000 → Fin 128 → EReal) (wt : Fin 128 → Fin 40 → EReal) (bv : Fin 40 → EReal)

/-- Row `p`'s score for class `c`. -/
def logit (p : Fin 100000) (c : Fin 40) : EReal := (∑ k : Fin 128, h p k * wt k c) + bv c
/-- Row `p`'s largest score, folded from minus infinity. -/
def rowMax (p : Fin 100000) : EReal := (Finset.univ : Finset (Fin 40)).fold max ninf (fun c => logit h wt bv p c)

/-- The log-softmax as the kernel computes it. -/
def lsmK (p : Fin 100000) (c : Fin 40) : EReal :=
  (logit h wt bv p c - rowMax h wt bv p) - Ideal.log (∑ c' : Fin 40, Ideal.exp (logit h wt bv p c' - rowMax h wt bv p))
/-- The log-softmax as the reference computes it. -/
def lsmR (p : Fin 100000) (c : Fin 40) : EReal :=
  (logit h wt bv p c - max ninf (rowMax h wt bv p))
    - Ideal.log (z0 + ∑ c' : Fin 40, Ideal.exp (logit h wt bv p c' - max ninf (rowMax h wt bv p)))

/-- The two are one function: the float zero is 0 and minus infinity is below every fold that starts from it. -/
theorem lsmK_eq_lsmR (p : Fin 100000) (c : Fin 40) : lsmK h wt bv p c = lsmR h wt bv p c := by
  have hmax : max ninf (rowMax h wt bv p) = rowMax h wt bv p := by
    rw [ninf_eq]; exact max_eq_right bot_le
  have hz : z0 = 0 := Consts.ofBits_zero
  unfold lsmK lsmR; rw [hmax, hz, zero_add]

end Cert.Val

end
-- ==== Proof.Val.Cls.lean ====
/-
  What the classifier call leaves in its output array, at the ideal instance: entry by entry the log-softmax of the row's
  scores against the transposed weights and the bias.
-/
import proofs.«119254_j89026082111679_1_alg».proof.Proof.KI.Fold
import proofs.«119254_j89026082111679_1_alg».proof.Proof.Val.SpecCls
import proofs.«119254_j89026082111679_1_alg».proof.Proof.Val.Prop
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem

namespace Cls

/-! ## Layout operations down a column, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row index of the block with the reduced class coordinate put back is the pair of them. -/
theorem lift_row (r : Fin 2000) (k : Fin (S2000x40.size 1)) :
    reduces_S2000x40_S2000.lift (ix1 r) k = (ix2 r (k : Fin 40) : S2000x40.Idx) :=
  funext fun a => Fin.ext (by
    rw [Shape.Reduces.lift_val]
    match a with
    | ⟨0, _⟩ => simp [Shape.Reduces.liftVal]
    | ⟨1, _⟩ => simp [Shape.Reduces.liftVal])

/-! ## The body's stored value in three stages, each read at an index -/

section Stages

/-- The block's scores: the rows against the weights, into a zero accumulator, plus the bias row. -/
def scK (x0 : Vec Ideal S2000x128 .f32) (x1 : Vec Ideal S128x40 .f32) (x2 : Vec Ideal S1x40 .f32) : FVec Ideal S2000x40 .f32 :=
  addf (matmul dot_S2000x128_S128x40_S2000x40_1_0_0_1_n_n none
      (truncf .bf16 (shapeCast S2000x128 x0 shapeCasts_S2000x128_S2000x128) bitsLt_bf16_f32)
      (truncf .bf16 (shapeCast S128x40 x1 shapeCasts_S128x40_S128x40) bitsLt_bf16_f32)
      (constant S2000x40 .f32 0x00000000#32))
    (broadcastTo S2000x40 (shapeCast S1x40 x2 shapeCasts_S1x40_S1x40) broadcasts_S1x40_S2000x40)

/-- Each row shifted by its maximum. -/
def shK (s : FVec Ideal S2000x40 .f32) : FVec Ideal S2000x40 .f32 :=
  subf s (broadcastTo S2000x40 (shapeCast S2000x1
    (multiReduction .maximumf [1] S2000 s 0xFF800000#32 reduces_S2000x40_S2000 (.inl rfl) rfl) shapeCasts_S2000_S2000x1)
    broadcasts_S2000x1_S2000x40)

/-- Each row less the logarithm of the sum of its exponentials. -/
def lsK (u : FVec Ideal S2000x40 .f32) : FVec Ideal S2000x40 .f32 :=
  subf u (broadcastTo S2000x40 (log (shapeCast S2000x1
    (multiReduction .add [1] S2000 (exp u) 0x00000000#32 reduces_S2000x40_S2000 (.inl rfl) rfl) shapeCasts_S2000_S2000x1))
    broadcasts_S2000x1_S2000x40)

/-- The stored value is the three stages composed. -/
theorem k2_pay1_eq (x0 : Vec Ideal S2000x128 .f32) (x1 : Vec Ideal S128x40 .f32) (x2 : Vec Ideal S1x40 .f32) :
    k2_pay1 (F := Ideal) x0 x1 x2 = lsK (shK (scK x0 x1 x2)) := rfl

end Stages

/-! ## Each stage at an index -/

section StagesAt

/-- The dot's operand indices at output index `i` and contraction index `q`, axis by axis. -/
theorem lhs_cls_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl
theorem lhs_cls_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_cls_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_cls_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- A score of the block: the row's products with the weights' column, summed, plus the bias entry. -/
theorem scK_apply (x0 : Vec Ideal S2000x128 .f32) (x1 : Vec Ideal S128x40 .f32) (x2 : Vec Ideal S1x40 .f32)
    (r : Fin 2000) (k : Fin 40) :
    scK x0 x1 x2 (ix2 r k) = (∑ j : Fin 128, x0 (ix2 r j) * x1 (ix2 j k)) + x2 (ix2 (0 : Fin 1) k) := by
  unfold scK
  rw [addf_apply]
  refine congrArg₂ (· + ·) ?_ ?_
  · simp only [matmul]
    rw [Ideal.matmul_constant_zero_apply,
      ← Equiv.sum_comp (contrEquiv1 dot_S2000x128_S128x40_S2000x40_1_0_0_1_n_n 128 rfl rfl).symm]
    refine Finset.sum_congr rfl fun j _ => ?_
    have hk := contrEquiv1_symm_val dot_S2000x128_S128x40_S2000x40_1_0_0_1_n_n 128 rfl rfl j
    have el : dot_S2000x128_S128x40_S2000x40_1_0_0_1_n_n.lhsIdx (ix2 r k)
        ((contrEquiv1 dot_S2000x128_S128x40_S2000x40_1_0_0_1_n_n 128 rfl rfl).symm j) = ix2 r j :=
      funext fun a => Fin.ext (by
        match a with
        | ⟨0, _⟩ => exact lhs_cls_0 _ _
        | ⟨1, _⟩ => exact (lhs_cls_1 _ _).trans hk)
    have er : dot_S2000x128_S128x40_S2000x40_1_0_0_1_n_n.rhsIdx (ix2 r k)
        ((contrEquiv1 dot_S2000x128_S128x40_S2000x40_1_0_0_1_n_n 128 rfl rfl).symm j) = ix2 j k :=
      funext fun a => Fin.ext (by
        match a with
        | ⟨0, _⟩ => exact (rhs_cls_0 _ _).trans hk
        | ⟨1, _⟩ => exact rhs_cls_1 _ _)
    rw [el, er, truncf_apply, truncf_apply, shapeCast_self, shapeCast_self]
  · rw [broadcastTo_1b_ab_apply, shapeCast_self]

/-- A shifted score: the score less its row's maximum, folded from minus infinity. -/
theorem shK_apply (s : FVec Ideal S2000x40 .f32) (r : Fin 2000) (k : Fin 40) :
    shK s (ix2 r k) = s (ix2 r k) - (Finset.univ : Finset (Fin 40)).fold max ninf (fun k' => s (ix2 r k')) := by
  unfold shK
  rw [subf_apply]
  refine congrArg (s (ix2 r k) - ·) ?_
  rw [broadcastTo_a1_ab_apply, shapeCast_a_a1_apply]
  refine (Ideal.multiReduction_maximumf_single s _ reduces_S2000x40_S2000 _ _ (ix1 r)).trans ?_
  exact congrArg ((Finset.univ : Finset (Fin 40)).fold max ninf) (funext fun k' => congrArg s (lift_row r k'))

/-- The last stage: the entry less the logarithm of its row's sum of exponentials. -/
theorem lsK_apply (u : FVec Ideal S2000x40 .f32) (r : Fin 2000) (k : Fin 40) :
    lsK u (ix2 r k) = u (ix2 r k) - Ideal.log (∑ k' : Fin 40, Ideal.exp (u (ix2 r k'))) := by
  unfold lsK
  rw [subf_apply]
  refine congrArg (u (ix2 r k) - ·) ?_
  rw [broadcastTo_a1_ab_apply]
  show Ideal.log (shapeCast S2000x1 (multiReduction .add [1] S2000 (exp u) 0x00000000#32 reduces_S2000x40_S2000 (.inl rfl) rfl)
    shapeCasts_S2000_S2000x1 (ix2 r (0 : Fin 1))) = _
  rw [shapeCast_a_a1_apply]
  refine congrArg Ideal.log ?_
  refine (Ideal.multiReduction_add_single (exp u) _ reduces_S2000x40_S2000 _ _ (ix1 r)).trans ?_
  exact Finset.sum_congr rfl fun k' _ => congrArg (exp u) (lift_row r k')

end StagesAt

/-- The stored value at an index, in the block's own operands. -/
theorem k2_pay1_at (x0 : Vec Ideal S2000x128 .f32) (x1 : Vec Ideal S128x40 .f32) (x2 : Vec Ideal S1x40 .f32)
    (r : Fin 2000) (k : Fin 40) :
    k2_pay1 (F := Ideal) x0 x1 x2 (ix2 r k)
      = (((∑ j : Fin 128, x0 (ix2 r j) * x1 (ix2 j k)) + x2 (ix2 (0 : Fin 1) k))
          - (Finset.univ : Finset (Fin 40)).fold max ninf
              (fun k' => (∑ j : Fin 128, x0 (ix2 r j) * x1 (ix2 j k')) + x2 (ix2 (0 : Fin 1) k')))
        - Ideal.log (∑ k' : Fin 40, Ideal.exp
            (((∑ j : Fin 128, x0 (ix2 r j) * x1 (ix2 j k')) + x2 (ix2 (0 : Fin 1) k'))
              - (Finset.univ : Finset (Fin 40)).fold max ninf
                  (fun k'' => (∑ j : Fin 128, x0 (ix2 r j) * x1 (ix2 j k'')) + x2 (ix2 (0 : Fin 1) k'')))) := by
  rw [k2_pay1_eq, lsK_apply]
  simp only [shK_apply, scK_apply]

/-! ## The blocks of a point, read at an index, at any contents `V` the call is entered from -/

section Blocks

variable (V : (c : Dev nD) → (b : Ref sig .tc) → Buf (Elt Ideal) ((c : Thread nD τ).loc b)) (c : Dev nD)

/-- The printed index maps over the grid: the row windows move with the point, the weights' and the bias' stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A row of block `t` is a row of the array. -/
theorem row_lt (t : Fin cfg2.N) (r : ℕ) (hr : r < 2000) : 2000 * t.val + r < 100000 := by
  have hN : cfg2.N = 50 := N_2
  have := t.isLt
  omega

/-- The rows' block at point `t`, -/
abbrev xb0 (t : Fin cfg2.N) : Vec Ideal S2000x128 .f32 := iblk2 V c 0 t
/-- the weights' (the whole array at every point), -/
abbrev xb1 (t : Fin cfg2.N) : Vec Ideal S128x40 .f32 := iblk2 V c 1 t
/-- and the bias row's (the whole array at every point). -/
abbrev xb2 (t : Fin cfg2.N) : Vec Ideal S1x40 .f32 := iblk2 V c 2 t

/-- The three arrays the call reads, at their literal types. -/
abbrev a74 : S100000x128.Idx → EReal := V c main_v74
abbrev a75 : S128x40.Idx → EReal := V c main_v75
abbrev a76 : S1x40.Idx → EReal := V c main_v76

theorem xb0_at (t : Fin cfg2.N) (r : Fin 2000) (j : Fin 128) :
    xb0 V c t (ix2 r j) = a74 V c (ix2 (⟨2000 * t.val + r.val, row_lt t r.val r.isLt⟩ : Fin 100000) j) := by
  show V c main_v74 (((cfg2.win 0).blk t).view.emb (ix2 r j)) = V c main_v74 _
  refine congrArg (V c main_v74) (funext fun a => Fin.ext ?_)
  obtain ⟨e0, e1, -⟩ := idx_facts2 t
  match a with
  | ⟨0, _⟩ => show win2_0.index t (0 : Fin 2) * 2000 + 1 * r.val = 2000 * t.val + r.val; rw [e0]; omega
  | ⟨1, _⟩ => show win2_0.index t (1 : Fin 2) * 128 + 1 * j.val = j.val; rw [e1]; omega

theorem xb1_at (t : Fin cfg2.N) (j : Fin 128) (k : Fin 40) : xb1 V c t (ix2 j k) = a75 V c (ix2 j k) := by
  show V c main_v75 (((cfg2.win 1).blk t).view.emb (ix2 j k)) = V c main_v75 _
  refine congrArg (V c main_v75) (funext fun a => Fin.ext ?_)
  obtain ⟨-, -, e2, e3, -⟩ := idx_facts2 t
  match a with
  | ⟨0, _⟩ => show win2_1.index t (0 : Fin 2) * 128 + 1 * j.val = j.val; rw [e2]; omega
  | ⟨1, _⟩ => show win2_1.index t (1 : Fin 2) * 40 + 1 * k.val = k.val; rw [e3]; omega

theorem xb2_at (t : Fin cfg2.N) (k : Fin 40) : xb2 V c t (ix2 (0 : Fin 1) k) = a76 V c (ix2 (0 : Fin 1) k) := by
  show V c main_v76 (((cfg2.win 2).blk t).view.emb (ix2 (0 : Fin 1) k)) = V c main_v76 _
  refine congrArg (V c main_v76) (funext fun a => Fin.ext ?_)
  obtain ⟨-, -, -, -, e4, e5, -⟩ := idx_facts2 t
  match a with
  | ⟨0, _⟩ => show win2_2.index t (0 : Fin 2) * 1 + 1 * (0 : Fin 1).val = (0 : Fin 1).val; rw [e4]; rfl
  | ⟨1, _⟩ => show win2_2.index t (1 : Fin 2) * 40 + 1 * k.val = k.val; rw [e5]; omega

end Blocks

/-! ## What a point writes back, and the whole array -/

section Array

variable (V : (c : Dev nD) → (b : Ref sig .tc) → Buf (Elt Ideal) ((c : Thread nD τ).loc b)) (c : Dev nD)

/-- The classifier's three operands as functions of coordinates: the rows, the weights, the bias. -/
abbrev hV : Fin 100000 → Fin 128 → EReal := fun p' k' => a74 V c (ix2 p' k')
abbrev wV : Fin 128 → Fin 40 → EReal := fun k' c' => a75 V c (ix2 k' c')
abbrev bV : Fin 40 → EReal := fun c' => a76 V c (ix2 (0 : Fin 1) c')

/-- The log-softmax depends on its row and class through their values only. -/
theorem lsmK_congr (h : Fin 100000 → Fin 128 → EReal) (wt : Fin 128 → Fin 40 → EReal) (bv : Fin 40 → EReal)
    {p p' : Fin 100000} {k k' : Fin 40} (hp : p.val = p'.val) (hk : k.val = k'.val) :
    lsmK h wt bv p k = lsmK h wt bv p' k' := by rw [Fin.ext hp, Fin.ext hk]

/-- Point `t`'s stored value at row `r` of the block and class `k` is the log-softmax of row `2000 t + r` of the array. -/
theorem pay_at (t : Fin cfg2.N) (r : Fin 2000) (k : Fin 40) :
    k2_pay1 (F := Ideal) (xb0 V c t) (xb1 V c t) (xb2 V c t) (ix2 r k)
      = lsmK (hV V c) (wV V c) (bV V c) ⟨2000 * t.val + r.val, row_lt t r.val r.isLt⟩ k := by
  rw [k2_pay1_at]
  simp only [xb0_at, xb1_at, xb2_at]
  rfl

/-- The same at any index of the block. -/
theorem pay_at_idx (t : Fin cfg2.N) (j : S2000x40.Idx) :
    k2_pay1 (F := Ideal) (xb0 V c t) (xb1 V c t) (xb2 V c t) j
      = lsmK (hV V c) (wV V c) (bV V c) ⟨2000 * t.val + (j 0).val, row_lt t (j 0).val (idx2_lt0 j)⟩ (j 1) :=
  (congrArg (k2_pay1 (F := Ideal) (xb0 V c t) (xb1 V c t) (xb2 V c t)) (eq_ix2 j)).trans (pay_at V c t (j 0) (j 1))

/-- What the output array ends holding: entry by entry the log-softmax of the row's scores. -/
def GV : S100000x40.Idx → EReal :=
  fun i => lsmK (hV V c) (wV V c) (bV V c) ⟨(i 0).val, idx2_lt0 i⟩ ⟨(i 1).val, idx2_lt1 i⟩

/-- WHAT POINT `t` WRITES BACK is block `t` of that array. -/
theorem flushed2_eq (t : Fin cfg2.N) :
    (dat2 V c).flushed 3 t = ((cfg2.win 3).blk t).view.read (Elt Ideal) (GV V c) := by
  show (cfg2.win 3).cut (grid2.coords t) ((dat2 V c).after 3 t) = _
  rw [after2_3]
  funext j
  show k2_pay1 (F := Ideal) (xb0 V c t) (xb1 V c t) (xb2 V c t) j = GV V c (((cfg2.win 3).blk t).view.emb j)
  refine (pay_at_idx V c t j).trans ?_
  obtain ⟨-, -, -, -, -, -, e6, e7⟩ := idx_facts2 t
  unfold GV
  refine lsmK_congr _ _ _ ?_ ?_
  · show 2000 * t.val + (j 0).val = win2_3.index t (0 : Fin 2) * 2000 + 1 * (j 0).val
    rw [e6]; omega
  · show (j 1).val = win2_3.index t (1 : Fin 2) * 40 + 1 * (j 1).val
    rw [e7]; omega

/-- An index of the array is in point `t`'s block iff each coordinate is in the block's range on its axis. -/
theorem mem_blk2 (t : Fin cfg2.N) (i : S100000x40.Idx) :
    i ∈ ((cfg2.win 3).blk t).view.set ↔ ∀ a : Fin 2, win2_3.index t a * S2000x40.size a ≤ (i a).val
      ∧ (i a).val < win2_3.index t a * S2000x40.size a + S2000x40.size a := by
  show i ∈ ((View.whole main_v77).slice (win2_3.rect t)).set ↔ _
  rw [View.set_slice_whole, Rect.mem_set_unit]
  exact Iff.rfl

/-- Every index of the array is in the block of the point its row falls in: row `p` in point `p / 2000`'s. -/
theorem cover2 (i : S100000x40.Idx) :
    ∃ t : Fin cfg2.N, (cfg2.win 3).flush t = true ∧ i ∈ ((cfg2.win 3).blk t).view.set := by
  have h0 : (i 0).val < 100000 := idx2_lt0 i
  have h1 : (i 1).val < 40 := idx2_lt1 i
  have hN : cfg2.N = 50 := N_2
  have hlt : (i 0).val / 2000 < cfg2.N := by omega
  obtain ⟨-, -, -, -, -, -, e6, e7⟩ := idx_facts2 ⟨(i 0).val / 2000, hlt⟩
  refine ⟨⟨(i 0).val / 2000, hlt⟩, flush2_3 _, (mem_blk2 _ i).mpr fun a => ?_⟩
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, hlt⟩ (1 : Fin 2) * 40 ≤ (i 1).val
      ∧ (i 1).val < win2_3.index ⟨(i 0).val / 2000, hlt⟩ (1 : Fin 2) * 40 + 40
    rw [e7]; omega

/-- THE ARRAY after the call: the blocks tile it, so it holds the log-softmax everywhere. -/
theorem final2 : (dat2 V c).arrAt 3 cfg2.N = GV V c :=
  (dat2 V c).arrAt_eq_of_cover 3 (GV V c) (fun t _ => flushed2_eq V c t) (cover2)

end Array

variable (m : (ℓ : Loc nD τ sig) → Buf (Elt Ideal) ℓ) (ρ : Dev nD → PrngReg) (c : Dev nD)

/-- The weights as the last call finds them are the argument's, transposed. -/
theorem a75_at (k' : Fin 128) (c' : Fin 40) :
    a75 (V5 (F := Ideal) m ρ) c (ix2 k' c') = m ((c.tc : Thread nD τ).loc main_arg1) (ix2 c' k') := by
  show W5 (F := Ideal) m ρ c (Proc.devRef .tc main_v75) (ix2 k' c') = _
  rw [W5_v75]
  exact transpose_ix2_apply _ _ k' c'

/-- The bias row as the last call finds it is the argument's, as one row. -/
theorem a76_at (c' : Fin 40) :
    a76 (V5 (F := Ideal) m ρ) c (ix2 (0 : Fin 1) c') = m ((c.tc : Thread nD τ).loc main_arg2) (ix1 c') := by
  show W5 (F := Ideal) m ρ c (Proc.devRef .tc main_v76) (ix2 (0 : Fin 1) c') = _
  rw [W5_v76]
  exact shapeCast_a_1a_apply _ _ (0 : Fin 1) c'

end Cls

open Cls

variable (m : (ℓ : Loc nD τ sig) → Buf (Elt Ideal) ℓ) (ρ : Dev nD → PrngReg) (c : Dev nD)

/-- After the last call its output array holds the log-softmax of the propagated features' scores. -/
theorem W6_at (p : Fin 100000) (k : Fin 40) :
    W6 (F := Ideal) m ρ c (Proc.devRef .tc main_v77) (ix2 p k)
      = lsmK (fun p' k' => W5 (F := Ideal) m ρ c (Proc.devRef .tc main_v74) (ix2 p' k'))
          (fun k' c' => m ((c.tc : Thread nD τ).loc main_arg1) (ix2 c' k'))
          (fun c' => m ((c.tc : Thread nD τ).loc main_arg2) (ix1 c')) p k := by
  have h1 : W6 (F := Ideal) m ρ c (Proc.devRef .tc main_v77) = (dat2 (V5 (F := Ideal) m ρ) c).arrAt 3 cfg2.N :=
    W6_arr m ρ c 3
  rw [h1, final2]
  show lsmK (hV (V5 (F := Ideal) m ρ) c) (wV (V5 (F := Ideal) m ρ) c) (bV (V5 (F := Ideal) m ρ) c) p k = _
  have hw : wV (V5 (F := Ideal) m ρ) c = fun k' c' => m ((c.tc : Thread nD τ).loc main_arg1) (ix2 c' k') :=
    funext fun k' => funext fun c' => a75_at m ρ c k' c'
  have hb : bV (V5 (F := Ideal) m ρ) c = fun c' => m ((c.tc : Thread nD τ).loc main_arg2) (ix1 c') :=
    funext fun c' => a76_at m ρ c c'
  rw [hw, hb]

end Cert.Val

end
-- ==== Proof.Val.RefBN.lean ====
/-
  The reference's binarised features at an index: the second arrangement of the batch-normalise-and-binarise step.
-/
import proofs.«119254_j89026082111679_1_alg».proof.Proof.RefRead
import proofs.«119254_j89026082111679_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Idealize.ShloMosaic Idealize.ShloMosaic.TcCoe Idealize.ShloMosaic.ValueIdx Idealize.SL.Sem
open Cert.ReferenceIdeal.ReadP

/-- The column-reduction's operand index at column `q`, row `k`. -/
theorem idx_v0 (q : Fin 128) (k : Fin 100000) : idx_main_v0 (ix1 q) k = ix2 k q := by
  funext a; match a with | ⟨0, _⟩ => rfl | ⟨1, _⟩ => rfl
theorem idx_v7 (q : Fin 128) (k : Fin 100000) : idx_main_v7 (ix1 q) k = ix2 k q := by
  funext a; match a with | ⟨0, _⟩ => rfl | ⟨1, _⟩ => rfl

/-- A column vector broadcast along the rows is read at the column. -/
theorem idx_v3_v4 (p : Fin 100000) (q : Fin 128) : idx_main_v3 (idx_main_v4 (ix2 p q)) = ix1 q := by
  funext a; match a with | ⟨0, _⟩ => rfl
theorem idx_v10_v11 (p : Fin 100000) (q : Fin 128) : idx_main_v10 (idx_main_v11 (ix2 p q)) = ix1 q := by
  funext a; match a with | ⟨0, _⟩ => rfl
theorem idx_v16_v17 (p : Fin 100000) (q : Fin 128) : idx_main_v16 (idx_main_v17 (ix2 p q)) = ix1 q := by
  funext a; match a with | ⟨0, _⟩ => rfl

/-- The reference's column mean. -/
theorem ref_mean (x : FVec Ideal SX .f32) (q : Fin 128) : val_main_v2 (F := Ideal) x (ix1 q) = meanR x q := by
  rw [val_main_v2_apply, val_main_v0_apply, val_main_v1_apply, val_main_cst_apply, val_main_cst_0_apply]
  have hs : (∑ k : Fin 100000, x (idx_main_v0 (ix1 q) k)) = colSum x q :=
    Finset.sum_congr rfl (fun k _ => congrArg x (idx_v0 q k))
  rw [hs]; rfl

/-- The reference's deviation from the column mean. -/
theorem ref_dev (x : FVec Ideal SX .f32) (p : Fin 100000) (q : Fin 128) :
    val_main_v5 (F := Ideal) x (ix2 p q) = x (ix2 p q) - meanR x q := by
  rw [val_main_v5_apply, val_main_v4_apply, val_main_v3_apply, idx_v3_v4, ref_mean]; rfl

/-- The reference's column variance. -/
theorem ref_var (x : FVec Ideal SX .f32) (q : Fin 128) : val_main_v9 (F := Ideal) x (ix1 q) = varR x q := by
  rw [val_main_v9_apply, val_main_v7_apply, val_main_v8_apply, val_main_cst_1_apply, val_main_cst_2_apply]
  have hs : (∑ k : Fin 100000, val_main_v6 (F := Ideal) x (idx_main_v7 (ix1 q) k))
      = ∑ k : Fin 100000, (x (ix2 k q) - meanR x q) * (x (ix2 k q) - meanR x q) := by
    refine Finset.sum_congr rfl (fun k _ => ?_)
    rw [idx_v7, val_main_v6_apply, ref_dev]; rfl
  rw [hs]; rfl

/-- The reference's reciprocal root of the offset variance. -/
theorem ref_inv (x : FVec Ideal SX .f32) (q : Fin 128) : val_main_v15 (F := Ideal) x (ix1 q) = invR x q := by
  rw [val_main_v15_apply, val_main_v14_apply, ref_var, val_main_v13_apply, val_main_cst_3_apply]; rfl

/-- The reference's sign stage, entry by entry. -/
theorem ref_at (x : FVec Ideal SX .f32) (p : Fin 100000) (q : Fin 128) :
    val_main_v19 (F := Ideal) x (ix2 p q) = hR x p q := by
  rw [val_main_v19_apply, val_main_v18_apply, val_main_v12_apply, val_main_v11_apply, val_main_v10_apply, idx_v10_v11,
    ref_mean, val_main_v17_apply, val_main_v16_apply, idx_v16_v17, ref_inv]
  rfl

end Cert.Val

end
-- ==== Proof.Val.RefProp.lean ====
/-
  The reference's propagated features are the same function of its binarised features and the edge list as the kernel
  program's host operations compute: the two programs spell the same operations.
-/
import proofs.«119254_j89026082111679_1_alg».proof.Proof.RefRead
import proofs.«119254_j89026082111679_1_alg».proof.Proof.Val.Prop

set_option maxRecDepth 16384

noncomputable section

namespace Cert.Val

open Idealize.ShloMosaic Idealize.ShloMosaic.TcCoe Idealize.SL.Sem
open Cert.ReferenceIdeal.ReadP

variable {F : FTy → Type} [FloatOps F]

/-! ## The reference's stages, named

Each stage of the reference between its sign stage and its third round is the corresponding named piece of the propagation:
the two programs spell the same operations over the same literal shapes. -/

/-- The edges' first end points with the self-loops' appended. -/
theorem ref_src (x3 : IVec Cert.ReferenceIdeal.S2x1600000 32) : val_main_v23 (F := F) x3 = srcIdx x3 := rfl
/-- The edges' second end points with the self-loops' appended. -/
theorem ref_tgt (x3 : IVec Cert.ReferenceIdeal.S2x1600000 32) : val_main_v26 (F := F) x3 = tgtIdx x3 := rfl

/-- The index lists as the gathers read them. -/
theorem ref_v37 (x3 : IVec Cert.ReferenceIdeal.S2x1600000 32) : val_main_v37 (F := F) x3 = wrapIdx (srcIdx x3) :=
  (rfl : val_main_v37 (F := F) x3 = wrapIdx (val_main_v23 (F := F) x3)).trans (congrArg wrapIdx (ref_src x3))
theorem ref_v44 (x3 : IVec Cert.ReferenceIdeal.S2x1600000 32) : val_main_v44 (F := F) x3 = wrapIdx (tgtIdx x3) :=
  (rfl : val_main_v44 (F := F) x3 = wrapIdx (val_main_v26 (F := F) x3)).trans (congrArg wrapIdx (ref_tgt x3))
theorem ref_v53 (x3 : IVec Cert.ReferenceIdeal.S2x1600000 32) : val_main_v53 (F := F) x3 = wrapIdx (srcIdx x3) :=
  (rfl : val_main_v53 (F := F) x3 = wrapIdx (val_main_v23 (F := F) x3)).trans (congrArg wrapIdx (ref_src x3))
theorem ref_v65 (x3 : IVec Cert.ReferenceIdeal.S2x1600000 32) : val_main_v65 (F := F) x3 = wrapIdx (srcIdx x3) :=
  (rfl : val_main_v65 (F := F) x3 = wrapIdx (val_main_v23 (F := F) x3)).trans (congrArg wrapIdx (ref_src x3))
theorem ref_v77 (x3 : IVec Cert.ReferenceIdeal.S2x1600000 32) : val_main_v77 (F := F) x3 = wrapIdx (srcIdx x3) :=
  (rfl : val_main_v77 (F := F) x3 = wrapIdx (val_main_v23 (F := F) x3)).trans (congrArg wrapIdx (ref_src x3))

/-- The index list as the scatters read it. -/
theorem ref_v29 (x3 : IVec Cert.ReferenceIdeal.S2x1600000 32) : val_main_v29 (F := F) x3 = colIdx (tgtIdx x3) :=
  (rfl : val_main_v29 (F := F) x3 = colIdx (val_main_v26 (F := F) x3)).trans (congrArg colIdx (ref_tgt x3))
theorem ref_v58 (x3 : IVec Cert.ReferenceIdeal.S2x1600000 32) : val_main_v58 (F := F) x3 = colIdx (tgtIdx x3) :=
  (rfl : val_main_v58 (F := F) x3 = colIdx (val_main_v26 (F := F) x3)).trans (congrArg colIdx (ref_tgt x3))
theorem ref_v70 (x3 : IVec Cert.ReferenceIdeal.S2x1600000 32) : val_main_v70 (F := F) x3 = colIdx (tgtIdx x3) :=
  (rfl : val_main_v70 (F := F) x3 = colIdx (val_main_v26 (F := F) x3)).trans (congrArg colIdx (ref_tgt x3))
theorem ref_v82 (x3 : IVec Cert.ReferenceIdeal.S2x1600000 32) : val_main_v82 (F := F) x3 = colIdx (tgtIdx x3) :=
  (rfl : val_main_v82 (F := F) x3 = colIdx (val_main_v26 (F := F) x3)).trans (congrArg colIdx (ref_tgt x3))

/-- The inverse root degrees. -/
theorem ref_v31 (x3 : IVec Cert.ReferenceIdeal.S2x1600000 32) : val_main_v31 (F := F) x3 = degInv (F := F) x3 := by
  unfold val_main_v31 val_main_v30 degInv
  rw [ref_v29]
  rfl

/-- The edge weights. -/
theorem ref_v47 (x3 : IVec Cert.ReferenceIdeal.S2x1600000 32) : val_main_v47 (F := F) x3 = edgeW (F := F) x3 := by
  unfold val_main_v47 val_main_v46 val_main_v38 val_main_v45 edgeW
  rw [ref_v31, ref_v37, ref_v44]
  rfl

/-- The weighted rows of each round. -/
theorem ref_v56 (x0 : FVec F Cert.ReferenceIdeal.S100000x128 .f32) (x3 : IVec Cert.ReferenceIdeal.S2x1600000 32) :
    val_main_v56 (F := F) x0 x3 = msgs x3 (val_main_v19 (F := F) x0) := by
  unfold val_main_v56 val_main_v55 val_main_v54 msgs
  rw [ref_v47, ref_v53]
  rfl
theorem ref_v68 (x0 : FVec F Cert.ReferenceIdeal.S100000x128 .f32) (x3 : IVec Cert.ReferenceIdeal.S2x1600000 32) :
    val_main_v68 (F := F) x0 x3 = msgs x3 (val_main_v59 (F := F) x0 x3) := by
  unfold val_main_v68 val_main_v67 val_main_v66 msgs
  rw [ref_v47, ref_v65]
  rfl
theorem ref_v80 (x0 : FVec F Cert.ReferenceIdeal.S100000x128 .f32) (x3 : IVec Cert.ReferenceIdeal.S2x1600000 32) :
    val_main_v80 (F := F) x0 x3 = msgs x3 (val_main_v71 (F := F) x0 x3) := by
  unfold val_main_v80 val_main_v79 val_main_v78 msgs
  rw [ref_v47, ref_v77]
  rfl

/-- The three rounds. -/
theorem ref_v59 (x0 : FVec F Cert.ReferenceIdeal.S100000x128 .f32) (x3 : IVec Cert.ReferenceIdeal.S2x1600000 32) :
    val_main_v59 (F := F) x0 x3 = round1 x3 (val_main_v19 (F := F) x0) := by
  unfold val_main_v59 round1 gatherUp
  rw [ref_v58, ref_v56]
  rfl
theorem ref_v71 (x0 : FVec F Cert.ReferenceIdeal.S100000x128 .f32) (x3 : IVec Cert.ReferenceIdeal.S2x1600000 32) :
    val_main_v71 (F := F) x0 x3 = round1 x3 (val_main_v59 (F := F) x0 x3) := by
  unfold val_main_v71 round1 gatherUp
  rw [ref_v70, ref_v68]
  rfl
theorem ref_v83 (x0 : FVec F Cert.ReferenceIdeal.S100000x128 .f32) (x3 : IVec Cert.ReferenceIdeal.S2x1600000 32) :
    val_main_v83 (F := F) x0 x3 = round1 x3 (val_main_v71 (F := F) x0 x3) := by
  unfold val_main_v83 round1 gatherUp
  rw [ref_v82, ref_v80]
  rfl

/-- The reference's stage after its three rounds of propagation is `prop3` of its sign stage. -/
theorem ref_prop (x0 : FVec F Cert.ReferenceIdeal.S100000x128 .f32) (x3 : IVec Cert.ReferenceIdeal.S2x1600000 32) :
    val_main_v83 (F := F) x0 x3 = prop3 (val_main_v19 (F := F) x0) x3 := by
  rw [ref_v83, ref_v71, ref_v59]
  rfl

end Cert.Val

end
-- ==== Proof.Val.RefCls.lean ====
/-
  The reference's result at an index: the log-softmax, in the reference's arrangement, of the propagated features' scores.
-/
import proofs.«119254_j89026082111679_1_alg».proof.Proof.RefRead
import proofs.«119254_j89026082111679_1_alg».proof.Proof.Val.SpecCls
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Idealize.ShloMosaic Idealize.ShloMosaic.TcCoe Idealize.ShloMosaic.ValueIdx Idealize.SL.Sem
open Cert.ReferenceIdeal.ReadP

/-- Row `p` of the reduced shape with class `c` put back on the dropped axis is the index (p, c). -/
theorem lift_row (h : (⟨2, ![100000, 40]⟩ : Shape).Reduces [1] (⟨1, ![100000]⟩ : Shape)) (p : Fin 100000)
    (c : Fin ((⟨2, ![100000, 40]⟩ : Shape).size 1)) : h.lift (ix1 p) c = ix2 p (⟨c.val, c.isLt⟩ : Fin 40) := by
  funext a; apply Fin.ext
  match a with
  | ⟨0, _⟩ => rfl
  | ⟨1, _⟩ => rfl

/-- A maximum-reduction over the class axis, at row `p`, is the fold of `max` over the row's forty entries from the
    initial value. -/
theorem hostReduce_max_row (x : FVec Ideal ⟨2, ![100000, 40]⟩ .f32) (init : FVec Ideal ⟨0, ![]⟩ .f32)
    (h' : (⟨2, ![100000, 40]⟩ : Shape).ReducesTo [1] (⟨1, ![100000]⟩ : Shape)) (hu : 0 < (⟨0, ![]⟩ : Shape).numel)
    (p : Fin 100000) :
    Host.reduce FloatOps.maximumf x init h' hu (ix1 p)
      = (Finset.univ : Finset (Fin 40)).fold max (init (Shape.Idx.first hu)) (fun c => x (ix2 p c)) := by
  have h : (⟨2, ![100000, 40]⟩ : Shape).Reduces [1] (⟨1, ![100000]⟩ : Shape) := by decide
  rw [Host.reduce_eq_fold_single FloatOps.maximumf x init h' h hu]
  have hf : (x ∘ h.lift (ix1 p)) = fun c : Fin 40 => x (ix2 p c) := funext fun c => congrArg x (lift_row h p c)
  exact congrArg (fun f => Finset.fold max (init (Shape.Idx.first hu)) f (Finset.univ : Finset (Fin 40))) hf

/-! The scalar steps over arbitrary values: each float operation at the ideal instance is the extended reals' own, and the
    two constants are the minus infinity and the zero the specification names. -/

theorem max_word (r : EReal) :
    FloatOps.maximumf (F := Ideal) (φ := .f32) (FloatOps.ofBits (F := Ideal) .f32 0xFF800000#32) r = max ninf r := rfl

theorem sub_word (a b : EReal) : FloatOps.subf (F := Ideal) (φ := .f32) a b = a - b := rfl

theorem lse_word (a m : EReal) (l : Fin 40 → EReal) :
    FloatOps.subf (F := Ideal) (φ := .f32) (a - m)
        (FloatOps.hostUnary (F := Ideal) (φ := .f32) .log
          (FloatOps.ofBits (F := Ideal) .f32 0x00000000#32
            + ∑ c : Fin 40, FloatOps.hostUnary (F := Ideal) (φ := .f32) .exp (l c - m)))
      = (a - m) - Ideal.log (z0 + ∑ c : Fin 40, Ideal.exp (l c - m)) := rfl

section
variable (x0 : FVec Ideal Cert.ReferenceIdeal.S100000x128 .f32) (x1 : FVec Ideal Cert.ReferenceIdeal.S40x128 .f32)
    (x2 : FVec Ideal Cert.ReferenceIdeal.S40 .f32) (x3 : IVec Cert.ReferenceIdeal.S2x1600000 32)

/-- The scores: the affine stage at (p, c) is row `p`'s score for class `c` — the contraction of the propagated row with
    the weights' row `c`, plus the bias at `c`. -/
theorem ref_logit (p : Fin 100000) (c : Fin 40) :
    val_main_v88 (F := Ideal) x0 x1 x2 x3 (ix2 p c)
      = logit (fun p' k' => val_main_v83 (F := Ideal) x0 x3 (ix2 p' k')) (fun k' c' => x1 (ix2 c' k'))
          (fun c' => x2 (ix1 c')) p c := by
  have el : ∀ k : Fin 128, lidx_main_v85 (ix2 p c) k = ix2 p k := fun k =>
    funext fun a => Fin.ext (by match a with | ⟨0, _⟩ => rfl | ⟨1, _⟩ => rfl)
  have er : ∀ k : Fin 128, idx_main_v84 (ridx_main_v85 (ix2 p c) k) = ix2 c k := fun k =>
    funext fun a => Fin.ext (by match a with | ⟨0, _⟩ => rfl | ⟨1, _⟩ => rfl)
  have eb : idx_main_v86 (idx_main_v87 (ix2 p c)) = ix1 c :=
    funext fun a => Fin.ext (by match a with | ⟨0, _⟩ => rfl)
  rw [val_main_v88_apply, val_main_v85_apply, val_main_v87_apply, val_main_v86_apply, eb]
  simp only [val_main_v84_apply, el, er, Ideal.addf_def]
  rfl

/-- The row maximum: the maximum-reduction stage at row `p` is the fold of `max` over the row's scores from minus infinity. -/
theorem ref_rowMax (p : Fin 100000) :
    val_main_call0_v0 (F := Ideal) x0 x1 x2 x3 (ix1 p)
      = rowMax (fun p' k' => val_main_v83 (F := Ideal) x0 x3 (ix2 p' k')) (fun k' c' => x1 (ix2 c' k'))
          (fun c' => x2 (ix1 c')) p := by
  unfold val_main_call0_v0
  refine (hostReduce_max_row _ _ _ _ p).trans ?_
  have hf : (fun c : Fin 40 => val_main_v88 (F := Ideal) x0 x1 x2 x3 (ix2 p c))
      = fun c => logit (fun p' k' => val_main_v83 (F := Ideal) x0 x3 (ix2 p' k')) (fun k' c' => x1 (ix2 c' k'))
          (fun c' => x2 (ix1 c')) p c := funext fun c => ref_logit x0 x1 x2 x3 p c
  rw [hf]
  rfl

/-- The shift at (p, c): the row maximum joined once more with minus infinity, broadcast back over the classes. -/
theorem ref_shift (p : Fin 100000) (c : Fin 40) :
    val_main_call0_v4 (F := Ideal) x0 x1 x2 x3 (ix2 p c)
      = max ninf (rowMax (fun p' k' => val_main_v83 (F := Ideal) x0 x3 (ix2 p' k')) (fun k' c' => x1 (ix2 c' k'))
          (fun c' => x2 (ix1 c')) p) := by
  have e34 : idx_main_call0_v3 (idx_main_call0_v4 (ix2 p c)) = ix1 p :=
    funext fun a => Fin.ext (by match a with | ⟨0, _⟩ => rfl)
  rw [val_main_call0_v4_apply, val_main_call0_v3_apply, e34, val_main_call0_v2_apply, val_main_call0_v1_apply,
    val_main_call0_cst_0_apply, ref_rowMax]
  exact max_word _

/-- The shifted score at (p, c). -/
theorem ref_shifted (p : Fin 100000) (c : Fin 40) :
    val_main_call0_v5 (F := Ideal) x0 x1 x2 x3 (ix2 p c)
      = logit (fun p' k' => val_main_v83 (F := Ideal) x0 x3 (ix2 p' k')) (fun k' c' => x1 (ix2 c' k'))
          (fun c' => x2 (ix1 c')) p c
        - max ninf (rowMax (fun p' k' => val_main_v83 (F := Ideal) x0 x3 (ix2 p' k')) (fun k' c' => x1 (ix2 c' k'))
          (fun c' => x2 (ix1 c')) p) := by
  rw [val_main_call0_v5_apply, ref_shift, ref_logit]
  exact sub_word _ _

/-- The sum of exponentials at row `p`: from the float zero, over the classes, of the exponential of the shifted score. -/
theorem ref_sumexp (p : Fin 100000) :
    val_main_call0_v7 (F := Ideal) x0 x1 x2 x3 (ix1 p)
      = FloatOps.ofBits (F := Ideal) .f32 0x00000000#32
        + ∑ c : Fin 40, FloatOps.hostUnary (F := Ideal) (φ := .f32) .exp
            (logit (fun p' k' => val_main_v83 (F := Ideal) x0 x3 (ix2 p' k')) (fun k' c' => x1 (ix2 c' k'))
          (fun c' => x2 (ix1 c')) p c
              - max ninf (rowMax (fun p' k' => val_main_v83 (F := Ideal) x0 x3 (ix2 p' k')) (fun k' c' => x1 (ix2 c' k'))
          (fun c' => x2 (ix1 c')) p)) := by
  rw [val_main_call0_v7_apply, val_main_call0_cst_1_apply]
  refine congrArg (fun s => FloatOps.ofBits (F := Ideal) .f32 0x00000000#32 + s) (Finset.sum_congr rfl fun c _ => ?_)
  have e7 : idx_main_call0_v7 (ix1 p) c = ix2 p c :=
    funext fun a => Fin.ext (by match a with | ⟨0, _⟩ => rfl | ⟨1, _⟩ => rfl)
  rw [e7, val_main_call0_v6_apply, ref_shifted]

/-- The logarithm of that sum, broadcast back over the classes. -/
theorem ref_lse (p : Fin 100000) (k : Fin 40) :
    val_main_call0_v10 (F := Ideal) x0 x1 x2 x3 (ix2 p k)
      = FloatOps.hostUnary (F := Ideal) (φ := .f32) .log
          (FloatOps.ofBits (F := Ideal) .f32 0x00000000#32
            + ∑ c : Fin 40, FloatOps.hostUnary (F := Ideal) (φ := .f32) .exp
                (logit (fun p' k' => val_main_v83 (F := Ideal) x0 x3 (ix2 p' k')) (fun k' c' => x1 (ix2 c' k'))
          (fun c' => x2 (ix1 c')) p c
                  - max ninf (rowMax (fun p' k' => val_main_v83 (F := Ideal) x0 x3 (ix2 p' k')) (fun k' c' => x1 (ix2 c' k'))
          (fun c' => x2 (ix1 c')) p))) := by
  have e810 : idx_main_call0_v8 (idx_main_call0_v10 (ix2 p k)) = ix1 p :=
    funext fun a => Fin.ext (by match a with | ⟨0, _⟩ => rfl)
  rw [val_main_call0_v10_apply, val_main_call0_v9_apply, val_main_call0_v8_apply, e810, ref_sumexp]

end

/-- The reference's last stage, entry by entry, over its propagated features, the weights and the bias. -/
theorem ref_cls (x0 : FVec Ideal Cert.ReferenceIdeal.S100000x128 .f32) (x1 : FVec Ideal Cert.ReferenceIdeal.S40x128 .f32)
    (x2 : FVec Ideal Cert.ReferenceIdeal.S40 .f32) (x3 : IVec Cert.ReferenceIdeal.S2x1600000 32) (p : Fin 100000) (k : Fin 40) :
    val_main_v89 (F := Ideal) x0 x1 x2 x3 (ix2 p k)
      = lsmR (fun p' k' => val_main_v83 (F := Ideal) x0 x3 (ix2 p' k')) (fun k' c' => x1 (ix2 c' k')) (fun c' => x2 (ix1 c')) p k := by
  rw [val_main_v89_apply, ref_shifted, ref_lse, lsmR]
  exact lse_word
    (logit (fun p' k' => val_main_v83 (F := Ideal) x0 x3 (ix2 p' k')) (fun k' c' => x1 (ix2 c' k'))
          (fun c' => x2 (ix1 c')) p k)
    (max ninf (rowMax (fun p' k' => val_main_v83 (F := Ideal) x0 x3 (ix2 p' k')) (fun k' c' => x1 (ix2 c' k'))
          (fun c' => x2 (ix1 c')) p))
    (logit (fun p' k' => val_main_v83 (F := Ideal) x0 x3 (ix2 p' k')) (fun k' c' => x1 (ix2 c' k'))
          (fun c' => x2 (ix1 c')) p)

end Cert.Val

end
-- ==== Proof.Val.Bridge.lean ====
/-
  The value claim. The idealised kernel program's result array, read through its three calls and the host operations between
  them, is the reference's last stage of the same four inputs: the binarised features agree because the two arrangements of
  the variance agree over real entries; the propagation over the graph is one function on both sides; the classifier's
  log-softmax agrees because a sum started from the float zero and a maximum joined once more with minus infinity are the
  sum and the maximum.
-/
import proofs.«119254_j89026082111679_1_alg».proof.Defs
import proofs.«119254_j89026082111679_1_alg».proof.Proof.KI.Run
import proofs.«119254_j89026082111679_1_alg».proof.Proof.RefRun
import proofs.«119254_j89026082111679_1_alg».proof.Proof.RefRead
import proofs.«119254_j89026082111679_1_alg».proof.Proof.Val.Finite
import proofs.«119254_j89026082111679_1_alg».proof.Proof.Val.Apply
import proofs.«119254_j89026082111679_1_alg».proof.Proof.Val.Prop
import proofs.«119254_j89026082111679_1_alg».proof.Proof.Val.Cls
import proofs.«119254_j89026082111679_1_alg».proof.Proof.Val.RefBN
import proofs.«119254_j89026082111679_1_alg».proof.Proof.Val.RefProp
import proofs.«119254_j89026082111679_1_alg».proof.Proof.Val.RefCls

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Over real feature entries the second call's output array is the reference's sign stage. -/
theorem bn_eq (hfin : ∀ i, ∃ r : ℝ, m ((c.tc : Thread nD τ).loc main_arg0) i = (r : EReal)) :
    W3 (F := Ideal) m ρ c (Proc.devRef .tc main_v10)
      = Cert.ReferenceIdeal.ReadP.val_main_v19 (F := Ideal) (m ((c.tc : Thread nD τ).loc main_arg0)) := by
  funext i
  obtain ⟨p, q, rfl⟩ : ∃ (p : Fin 100000) (q : Fin 128), i = ix2 p q := ⟨i 0, i 1, eq_ix2 i⟩
  rw [W3_at m ρ c p q]
  exact (hK_eq_hR _ hfin p q).trans (ref_at _ p q).symm

/-- So the propagated features the last call reads are the reference's. -/
theorem prop_eq (hfin : ∀ i, ∃ r : ℝ, m ((c.tc : Thread nD τ).loc main_arg0) i = (r : EReal)) :
    W5 (F := Ideal) m ρ c (Proc.devRef .tc main_v74)
      = Cert.ReferenceIdeal.ReadP.val_main_v83 (F := Ideal) (m ((c.tc : Thread nD τ).loc main_arg0)) (m ((c.tc : Thread nD τ).loc main_arg3)) := by
  rw [W5_v74 m ρ c, bn_eq m ρ c hfin]
  exact (ref_prop _ _).symm

/-- And the kernel program's result array is the reference's last stage. -/
theorem out_eq (hfin : ∀ i, ∃ r : ℝ, m ((c.tc : Thread nD τ).loc main_arg0) i = (r : EReal)) :
    W6 (F := Ideal) m ρ c (Proc.devRef .tc main_v77)
      = Cert.ReferenceIdeal.ReadP.val_main_v89 (F := Ideal) (m ((c.tc : Thread nD τ).loc main_arg0)) (m ((c.tc : Thread nD τ).loc main_arg1))
          (m ((c.tc : Thread nD τ).loc main_arg2)) (m ((c.tc : Thread nD τ).loc main_arg3)) := by
  funext i
  obtain ⟨p, k, rfl⟩ : ∃ (p : Fin 100000) (k : Fin 40), i = ix2 p k := ⟨i 0, i 1, eq_ix2 i⟩
  rw [W6_at m ρ c p k, prop_eq m ρ c hfin, lsmK_eq_lsmR]
  exact (ref_cls _ _ _ _ p k).symm

/-- THE VALUE CLAIM: from memories agreeing on the four inputs, under the precondition, both idealised programs run to the
    end with the same result array, the reference's last stage of the inputs, and unchanged inputs. -/
theorem algebraic : Cert.algebraic_KernelIdeal_ReferenceIdeal := by
  intro m ρ m' ρ' hpre hagree
  refine ⟨fun c => Cert.ReferenceIdeal.ReadP.val_main_v89 (F := Ideal) (m ((c.tc : Thread nD τ).loc main_arg0))
      (m ((c.tc : Thread nD τ).loc main_arg1)) (m ((c.tc : Thread nD τ).loc main_arg2)) (m ((c.tc : Thread nD τ).loc main_arg3)), ?_, ?_⟩
  · exact (θ_run Cert.KernelIdeal.defs _ _).mono
      (fun _ h c => ⟨(h c).1.trans (out_eq m ρ c (finite_of_pre _ _ _ _ (hpre c))), (h c).2⟩)
      (Cert.KernelIdeal.Fr.value_run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2]

end Cert.Val

end
-- ==== Proof.lean ====
/-
  The certificate. The kernel program computes batch-norm statistics, the normalised and binarised features and, after three
  rounds of propagation over the graph done by host operations, a linear classifier with log-softmax, in three kernel calls;
  the reference computes the same with host operations alone. Claimed and proved: each program runs to the end without a
  fault and leaves its inputs unchanged (the two kernel programs' runs are assembled call by call and stretch by stretch, the
  statistics call carrying two running rows from grid point to grid point; the reference's is its list of operations read
  back); the idealised kernel program is the word-level one with its sign computed on values instead of bits; and at the
  ideal instance the two idealised programs return the same array, because over real entries the mean of squared deviations
  is the mean of squares minus the squared mean.
-/
import proofs.«119254_j89026082111679_1_alg».proof.Defs
import proofs.«119254_j89026082111679_1_alg».proof.Proof.Gen.Kernel
import proofs.«119254_j89026082111679_1_alg».proof.Proof.Gen.KernelIdeal
import proofs.«119254_j89026082111679_1_alg».proof.Proof.Gen.ReferenceIdeal
import proofs.«119254_j89026082111679_1_alg».proof.Proof.Gen.Pre_finite_inputs
import proofs.«119254_j89026082111679_1_alg».proof.Proof.K.Run
import proofs.«119254_j89026082111679_1_alg».proof.Proof.KI.Run
import proofs.«119254_j89026082111679_1_alg».proof.Proof.RefRun
import proofs.«119254_j89026082111679_1_alg».proof.Proof.Val.Bridge
import Idealize.ShloMosaic.Adequacy
import Idealize.ShloMosaic.Init

noncomputable section

namespace Cert.Proof

open Idealize.ShloMosaic Idealize.SL.Sem

/-- The word-level program runs to the end and leaves its four inputs unchanged. -/
theorem frame_k : Cert.frame_Kernel := fun m ρ _ => Cert.Kernel.Fr.frame m ρ

/-- So does the idealised one. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the ideal pass: ±1 by the sign bit is ±1 by comparison with zero. -/
theorem preserves : Cert.preserves_Kernel_KernelIdeal := IdealRules.sign_bit.statement Cert.KernelIdeal.S2000x128 .f32

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Val.algebraic⟩

end Cert.Proof

end
